-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel

variable [Facts]

def fn {F : FTy → Type} [FloatOps F] (main_arg0 : FVec F S64x4096x128 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  main_v3
-- ==== Kernel.lean ====
abbrev S64x4096x128 : Shape := ⟨3, ![64, 4096, 128]⟩
abbrev S1x4096x128 : Shape := ⟨3, ![1, 4096, 128]⟩

abbrev nBuf : Space → Nat
  | .hbm => 2
  | .vmem => 4
  | .smem => 0
  | _ => 0

abbrev bufTy : (tb : Table) → Fin (tcTables nBuf tb) → BufTy
  | .hbm, ⟨0, _⟩ => ⟨S64x4096x128, .f32⟩
  | .hbm, ⟨1, _⟩ => ⟨S64x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  iota_S1x4096x128_d1_w32 : S1x4096x128.Iotas .tc 32 [1]
  rotates_S1x4096x128_d1 : S1x4096x128.Rotates 1 none
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S64x4096x128.size a
  hwx0_0 : ∀ i : grid0.Coords, EltTy.bits .f32 = 32 ∨ (Rect.block (s := S64x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S64x4096x128.size a
  hwx0_1 : ∀ i : grid0.Coords, EltTy.bits .f32 = 32 ∨ (Rect.block (s := S64x4096x128) S1x4096x128.size (cc0_transform_1 i) (hinb0_1 i)).WholeWords (EltTy.packing .f32)

variable [Facts₀]

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x4096x128 : Shape := ⟨3, ![64, 4096, 128]⟩
abbrev S_ : Shape := ⟨0, ![]⟩
abbrev S4096 : Shape := ⟨1, ![4096]⟩
abbrev S1x4096x1 : Shape := ⟨3, ![1, 4096, 1]⟩
abbrev S64x4096x128x1 : Shape := ⟨4, ![64, 4096, 128, 1]⟩
abbrev S1 : Shape := ⟨1, ![1]⟩
abbrev S1x1x1x1 : Shape := ⟨4, ![1, 1, 1, 1]⟩

abbrev nBuf : Space → Nat
  | .hbm => 101
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S_, .f32⟩
  | .hbm, ⟨2, _⟩ => ⟨S64x4096x128, .f32⟩
  | .hbm, ⟨3, _⟩ => ⟨S64x4096x128, .i1⟩
  | .hbm, ⟨4, _⟩ => ⟨S4096, .i32⟩
  | .hbm, ⟨5, _⟩ => ⟨S1x4096x1, .i32⟩
  | .hbm, ⟨6, _⟩ => ⟨S_, .i32⟩
  | .hbm, ⟨7, _⟩ => ⟨S_, .i32⟩
  | .hbm, ⟨8, _⟩ => ⟨S64x4096x128, .i32⟩
  | .hbm, ⟨9, _⟩ => ⟨S64x4096x128, .i32⟩
  | .hbm, ⟨10, _⟩ => ⟨S64x4096x128, .i32⟩
  | .hbm, ⟨11, _⟩ => ⟨S_, .i32⟩
  | .hbm, ⟨12, _⟩ => ⟨S_, .i32⟩
  | .hbm, ⟨13, _⟩ => ⟨S64x4096x128, .i32⟩
  | .hbm, ⟨14, _⟩ => ⟨S_, .i32⟩
  | .hbm, ⟨15, _⟩ => ⟨S_, .i32⟩
  | .hbm, ⟨16, _⟩ => ⟨S64x4096x128, .i32⟩
  | .hbm, ⟨17, _⟩ => ⟨S64x4096x128, .i32⟩
  | .hbm, ⟨18, _⟩ => ⟨S64x4096x128, .i32⟩
  | .hbm, ⟨19, _⟩ => ⟨S_, .i32⟩
  | .hbm, ⟨20, _⟩ => ⟨S_, .i32⟩
  | .hbm, ⟨21, _⟩ => ⟨S64x4096x128, .i32⟩
  | .hbm, ⟨22, _⟩ => ⟨S_, .i32⟩
  | .hbm, ⟨23, _⟩ => ⟨S64x4096x128, .i32⟩
  | .hbm, ⟨24, _⟩ => ⟨S64x4096x128, .i32⟩
  | .hbm, ⟨25, _⟩ => ⟨S_, .i32⟩
  | .hbm, ⟨26, _⟩ => ⟨S64x4096x128, .i32⟩
  | .hbm, ⟨27, _⟩ => ⟨S64x4096x128, .i1⟩
  | .hbm, ⟨28, _⟩ => ⟨S_, .i32⟩
  | .hbm, ⟨29, _⟩ => ⟨S_, .i32⟩
  | .hbm, ⟨30, _⟩ => ⟨S64x4096x128, .i32⟩
  | .hbm, ⟨31, _⟩ => ⟨S64x4096x128, .i32⟩
  | .hbm, ⟨32, _⟩ => ⟨S_, .i32⟩
  | .hbm, ⟨33, _⟩ => ⟨S64x4096x128, .i32⟩
  | .hbm, ⟨34, _⟩ => ⟨S64x4096x128, .i1⟩
  | .hbm, ⟨35, _⟩ => ⟨S_, .i32⟩
  | .hbm, ⟨36, _⟩ => ⟨S64x4096x128, .i32⟩
  | .hbm, ⟨37, _⟩ => ⟨S64x4096x128, .i32⟩
  | .hbm, ⟨38, _⟩ => ⟨S64x4096x128, .i32⟩
  | .hbm, ⟨39, _⟩ => ⟨S64x4096x128x1, .i32⟩
  | .hbm, ⟨40, _⟩ => ⟨S1, .i32⟩
  | .hbm, ⟨41, _⟩ => ⟨S_, .i32⟩
  | .hbm, ⟨42, _⟩ => ⟨S64x4096x128x1, .i32⟩
  | .hbm, ⟨43, _⟩ => ⟨S64x4096x128x1, .i1⟩
  | .hbm, ⟨44, _⟩ => ⟨S1x1x1x1, .i32⟩
  | .hbm, ⟨45, _⟩ => ⟨S64x4096x128x1, .i32⟩
  | .hbm, ⟨46, _⟩ => ⟨S64x4096x128x1, .i1⟩
  | .hbm, ⟨47, _⟩ => ⟨S64x4096x128x1, .i1⟩
  | .hbm, ⟨48, _⟩ => ⟨S_, .i1⟩
  | .hbm, ⟨49, _⟩ => ⟨S64x4096x128, .i1⟩
  | .hbm, ⟨50, _⟩ => ⟨S64x4096x128, .f32⟩
  | .hbm, ⟨51, _⟩ => ⟨S_, .f32⟩
  | .hbm, ⟨52, _⟩ => ⟨S64x4096x128, .f32⟩
  | .hbm, ⟨53, _⟩ => ⟨S64x4096x128, .f32⟩
  | .hbm, ⟨54, _⟩ => ⟨S_, .i32⟩
  | .hbm, ⟨55, _⟩ => ⟨S64x4096x128, .i32⟩
  | .hbm, ⟨56, _⟩ => ⟨S64x4096x128, .i1⟩
  | .hbm, ⟨57, _⟩ => ⟨S_, .i32⟩
  | .hbm, ⟨58, _⟩ => ⟨S64x4096x128, .i32⟩
  | .hbm, ⟨59, _⟩ => ⟨S64x4096x128, .i32⟩
  | .hbm, ⟨60, _⟩ => ⟨S64x4096x128, .i32⟩
  | .hbm, ⟨61, _⟩ => ⟨S64x4096x128x1, .i32⟩
  | .hbm, ⟨62, _⟩ => ⟨S1, .i32⟩
  | .hbm, ⟨63, _⟩ => ⟨S_, .i32⟩
  | .hbm, ⟨64, _⟩ => ⟨S64x4096x128x1, .i32⟩
  | .hbm, ⟨65, _⟩ => ⟨S64x4096x128x1, .i1⟩
  | .hbm, ⟨66, _⟩ => ⟨S1x1x1x1, .i32⟩
  | .hbm, ⟨67, _⟩ => ⟨S64x4096x128x1, .i32⟩
  | .hbm, ⟨68, _⟩ => ⟨S64x4096x128x1, .i1⟩
  | .hbm, ⟨69, _⟩ => ⟨S64x4096x128x1, .i1⟩
  | .hbm, ⟨70, _⟩ => ⟨S_, .i1⟩
  | .hbm, ⟨71, _⟩ => ⟨S64x4096x128, .i1⟩
  | .hbm, ⟨72, _⟩ => ⟨S64x4096x128, .f32⟩
  | .hbm, ⟨73, _⟩ => ⟨S_, .f32⟩
  | .hbm, ⟨74, _⟩ => ⟨S64x4096x128, .f32⟩
  | .hbm, ⟨75, _⟩ => ⟨S64x4096x128, .f32⟩
  | .hbm, ⟨76, _⟩ => ⟨S64x4096x128, .i32⟩
  | .hbm, ⟨77, _⟩ => ⟨S_, .i32⟩
  | .hbm, ⟨78, _⟩ => ⟨S64x4096x128, .i32⟩
  | .hbm, ⟨79, _⟩ => ⟨S64x4096x128, .i32⟩
  | .hbm, ⟨80, _⟩ => ⟨S64x4096x128, .i32⟩
  | .hbm, ⟨81, _⟩ => ⟨S64x4096x128, .i32⟩
  | .hbm, ⟨82, _⟩ => ⟨S64x4096x128, .f32⟩
  | .hbm, ⟨83, _⟩ => ⟨S64x4096x128, .f32⟩
  | .hbm, ⟨84, _⟩ => ⟨S64x4096x128, .f32⟩
  | .hbm, ⟨85, _⟩ => ⟨S_, .i32⟩
  | .hbm, ⟨86, _⟩ => ⟨S64x4096x128, .i32⟩
  | .hbm, ⟨87, _⟩ => ⟨S64x4096x128, .i32⟩
  | .hbm, ⟨88, _⟩ => ⟨S64x4096x128, .f32⟩
  | .hbm, ⟨89, _⟩ => ⟨S64x4096x128, .f32⟩
  | .hbm, ⟨90, _⟩ => ⟨S64x4096x128, .f32⟩
  | .hbm, ⟨91, _⟩ => ⟨S_, .i32⟩
  | .hbm, ⟨92, _⟩ => ⟨S64x4096x128, .i32⟩
  | .hbm, ⟨93, _⟩ => ⟨S64x4096x128, .i1⟩
  | .hbm, ⟨94, _⟩ => ⟨S64x4096x128, .f32⟩
  | .hbm, ⟨95, _⟩ => ⟨S64x4096x128, .i1⟩
  | .hbm, ⟨96, _⟩ => ⟨S64x4096x128, .i1⟩
  | .hbm, ⟨97, _⟩ => ⟨S64x4096x128, .i32⟩
  | .hbm, ⟨98, _⟩ => ⟨S64x4096x128, .i1⟩
  | .hbm, ⟨99, _⟩ => ⟨S64x4096x128, .i1⟩
  | .hbm, ⟨100, _⟩ => ⟨S64x4096x128, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v4 : Ref sig .tc := ⟨.hbm, 10, rfl⟩
abbrev main_call1_c : Ref sig .tc := ⟨.hbm, 11, rfl⟩
abbrev main_call1_v0 : Ref sig .tc := ⟨.hbm, 12, rfl⟩
abbrev main_v5 : Ref sig .tc := ⟨.hbm, 13, rfl⟩
abbrev main_c_0 : Ref sig .tc := ⟨.hbm, 14, rfl⟩
abbrev main_call2_v0 : Ref sig .tc := ⟨.hbm, 15, rfl⟩
abbrev main_call2_v1 : Ref sig .tc := ⟨.hbm, 16, rfl⟩
abbrev main_call2_v2 : Ref sig .tc := ⟨.hbm, 17, rfl⟩
abbrev main_v6 : Ref sig .tc := ⟨.hbm, 18, rfl⟩
abbrev main_call3_c : Ref sig .tc := ⟨.hbm, 19, rfl⟩
abbrev main_call3_v0 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_call4_v0 : Ref sig .tc := ⟨.hbm, 29, rfl⟩
abbrev main_call4_v1 : Ref sig .tc := ⟨.hbm, 30, rfl⟩
abbrev main_v12 : Ref sig .tc := ⟨.hbm, 31, rfl⟩
abbrev main_call5_c : Ref sig .tc := ⟨.hbm, 32, rfl⟩
abbrev main_call5_v0 : Ref sig .tc := ⟨.hbm, 33, rfl⟩
abbrev main_call5_v1 : Ref sig .tc := ⟨.hbm, 34, rfl⟩
abbrev main_call5_c_0 : Ref sig .tc := ⟨.hbm, 35, rfl⟩
abbrev main_call5_v2 : Ref sig .tc := ⟨.hbm, 36, rfl⟩
abbrev main_call5_v3 : Ref sig .tc := ⟨.hbm, 37, rfl⟩
abbrev main_call5_v4 : Ref sig .tc := ⟨.hbm, 38, rfl⟩
abbrev main_call5_v5 : Ref sig .tc := ⟨.hbm, 39, rfl⟩
abbrev main_call5_c_1 : Ref sig .tc := ⟨.hbm, 40, rfl⟩
abbrev main_call5_c_2 : Ref sig .tc := ⟨.hbm, 41, rfl⟩
abbrev main_call5_v6 : Ref sig .tc := ⟨.hbm, 42, rfl⟩
abbrev main_call5_v7 : Ref sig .tc := ⟨.hbm, 43, rfl⟩
abbrev main_call5_v8 : Ref sig .tc := ⟨.hbm, 44, rfl⟩
abbrev main_call5_v9 : Ref sig .tc := ⟨.hbm, 45, rfl⟩
abbrev main_call5_v10 : Ref sig .tc := ⟨.hbm, 46, rfl⟩
abbrev main_call5_v11 : Ref sig .tc := ⟨.hbm, 47, rfl⟩
abbrev main_call5_c_3 : Ref sig .tc := ⟨.hbm, 48, rfl⟩
abbrev main_call5_v12 : Ref sig .tc := ⟨.hbm, 49, rfl⟩
abbrev main_call5_v13 : Ref sig .tc := ⟨.hbm, 50, rfl⟩
abbrev main_call5_cst : Ref sig .tc := ⟨.hbm, 51, rfl⟩
abbrev main_call5_v14 : Ref sig .tc := ⟨.hbm, 52, rfl⟩
abbrev main_v13 : Ref sig .tc := ⟨.hbm, 53, rfl⟩
abbrev main_call6_c : Ref sig .tc := ⟨.hbm, 54, rfl⟩
abbrev main_call6_v0 : Ref sig .tc := ⟨.hbm, 55, rfl⟩
abbrev main_call6_v1 : Ref sig .tc := ⟨.hbm, 56, rfl⟩
abbrev main_call6_c_0 : Ref sig .tc := ⟨.hbm, 57, rfl⟩
abbrev main_call6_v2 : Ref sig .tc := ⟨.hbm, 58, rfl⟩
abbrev main_call6_v3 : Ref sig .tc := ⟨.hbm, 59, rfl⟩
abbrev main_call6_v4 : Ref sig .tc := ⟨.hbm, 60, rfl⟩
abbrev main_call6_v5 : Ref sig .tc := ⟨.hbm, 61, rfl⟩
abbrev main_call6_c_1 : Ref sig .tc := ⟨.hbm, 62, rfl⟩
abbrev main_call6_c_2 : Ref sig .tc := ⟨.hbm, 63, rfl⟩
abbrev main_call6_v6 : Ref sig .tc := ⟨.hbm, 64, rfl⟩
abbrev main_call6_v7 : Ref sig .tc := ⟨.hbm, 65, rfl⟩
abbrev main_call6_v8 : Ref sig .tc := ⟨.hbm, 66, rfl⟩
abbrev main_call6_v9 : Ref sig .tc := ⟨.hbm, 67, rfl⟩
abbrev main_call6_v10 : Ref sig .tc := ⟨.hbm, 68, rfl⟩
abbrev main_call6_v11 : Ref sig .tc := ⟨.hbm, 69, rfl⟩
abbrev main_call6_c_3 : Ref sig .tc := ⟨.hbm, 70, rfl⟩
abbrev main_call6_v12 : Ref sig .tc := ⟨.hbm, 71, rfl⟩
abbrev main_call6_v13 : Ref sig .tc := ⟨.hbm, 72, rfl⟩
abbrev main_call6_cst : Ref sig .tc := ⟨.hbm, 73, rfl⟩
abbrev main_call6_v14 : Ref sig .tc := ⟨.hbm, 74, rfl⟩
abbrev main_v14 : Ref sig .tc := ⟨.hbm, 75, rfl⟩
abbrev main_v15 : Ref sig .tc := ⟨.hbm, 76, rfl⟩
abbrev main_c_4 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_c_5 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_c_6 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩

abbrev nD : Nat := 1
abbrev τ : Topo := Topo.v7x

variable {F : FTy → Type} [FloatOps F]

class Facts₀ : Prop where
  bcast_S_S64x4096x128 : S_.BroadcastsInDim S64x4096x128 (![] : Fin 0 → Fin S64x4096x128.rank)
  bcast_S4096_S1x4096x1_1 : S4096.BroadcastsInDim S1x4096x1 (![1] : Fin 1 → Fin S1x4096x1.rank)
  bcast_S1x4096x1_S64x4096x128_0_1_2 : S1x4096x1.BroadcastsInDim S64x4096x128 (![0, 1, 2] : Fin 3 → Fin S64x4096x128.rank)
  bcast_S_S_ : S_.BroadcastsInDim S_ (![] : Fin 0 → Fin S_.rank)
  reduceWindows_S64x4096x128_S64x4096x128_w1s1p0_0_w4096s1p4095_0_w1s1p0_0 : S64x4096x128.ReduceWindows (![1, 4096, 1] : Fin 3 → Nat) ![1, 1, 1] ![0, 4095, 0] ![0, 0, 0] S64x4096x128
  h_S_ : 0 < S_.numel
  reduceWindows_S64x4096x128_S64x4096x128_w1s1p0_0_w4096s1p0_4095_w1s1p0_0 : S64x4096x128.ReduceWindows (![1, 4096, 1] : Fin 3 → Nat) ![1, 1, 1] ![0, 0, 0] ![0, 4095, 0] S64x4096x128
  shapeCasts_S64x4096x128_S64x4096x128x1 : S64x4096x128.ShapeCasts S64x4096x128x1
  bcast_S_S64x4096x128x1 : S_.BroadcastsInDim S64x4096x128x1 (![] : Fin 0 → Fin S64x4096x128x1.rank)
  bcast_S1_S1x1x1x1_3 : S1.BroadcastsInDim S1x1x1x1 (![3] : Fin 1 → Fin S1x1x1x1.rank)
  bcast_S1x1x1x1_S64x4096x128x1_0_1_2_3 : S1x1x1x1.BroadcastsInDim S64x4096x128x1 (![0, 1, 2, 3] : Fin 4 → Fin S64x4096x128x1.rank)
  reducesTo_S64x4096x128x1_S64x4096x128_d3 : S64x4096x128x1.ReducesTo [3] S64x4096x128
  gather_S64x4096x128_S64x4096x128x1_S64x4096x128_n_1_02_02_1_3_111_wf : GatherDims.WF S64x4096x128 S64x4096x128x1 S64x4096x128 [] [1] [0, 2] [1] [0, 2] 3 ![1, 1, 1]

variable [Facts₀]

def gather_S64x4096x128_S64x4096x128x1_S64x4096x128_n_1_02_02_1_3_111 : GatherDims S64x4096x128 S64x4096x128x1 S64x4096x128 where
  offsetDims := []
  collapsedSliceDims := [1]
  operandBatchingDims := [0, 2]
  startIndicesBatchingDims := [0, 2]
  startIndexMap := [1]
  indexVectorDim := 3
  sliceSizes := ![1, 1, 1]
  wf := gather_S64x4096x128_S64x4096x128x1_S64x4096x128_n_1_02_02_1_3_111_wf

class Facts : Prop extends Facts₀ where

variable [Facts]
-- ==== Proof.Spec.lean ====
/-
  The column specification of the gap-filling operator. A column is a sequence of 4096 extended reals along the
  time axis (one batch row, one feature lane); an entry is OBSERVED when it is not zero. For a position t the previous
  observed position pv (or -1) and the next observed position nv (or 4096) are found, the run of missing entries
  between them is filled by linear interpolation between the values at start = max(pv, 0) and end = (nv < 4096 ? nv : 4095),
  and observed entries, and the entries from end on, are kept.
  prevIdx valid n t : the greatest observed s with t - n < s ≤ t, else -1   (a window of n positions ending at t)
  nextIdx T valid n t : the least observed s with t ≤ s < t + n, s < T, else T (a window of n positions starting at t)
-/
import Idealize.ShloMosaic.PureOps.Ideal
import Idealize.ShloMosaic.Lib.ValueIdx

noncomputable section

namespace Cert.Impute

open Idealize.ShloMosaic Idealize.ShloMosaic.ValueIdx

/-- The greatest observed position in the window of `n` positions ending at `t` (cut at 0), or `-1`. -/
def prevIdx (valid : ℕ → Prop) [DecidablePred valid] : ℕ → ℕ → ℤ
  | 0, _ => -1
  | _ + 1, 0 => if valid 0 then 0 else -1
  | n + 1, t + 1 => if valid (t + 1) then ((t + 1 : ℕ) : ℤ) else prevIdx valid n t

/-- The least observed position in the window of `n` positions starting at `t` (cut at `T`), or `T`. -/
def nextIdx (T : ℕ) (valid : ℕ → Prop) [DecidablePred valid] : ℕ → ℕ → ℤ
  | 0, _ => (T : ℤ)
  | n + 1, t => if T ≤ t then (T : ℤ) else if valid t then (t : ℤ) else nextIdx T valid n (t + 1)

/-- An integer as a 32-bit word. -/
abbrev bv (z : ℤ) : BitVec 32 := BitVec.ofInt 32 z

/-- Column `(b, ·, d)` of a rank-3 array with 4096 positions on its middle axis, as a sequence (zero past the end). -/
def colOf {B : ℕ} (x : (⟨3, ![B, 4096, 128]⟩ : Shape).Idx → EReal) (b : Fin B) (d : Fin 128) (s : ℕ) : EReal :=
  if h : s < 4096 then x (ix3 b ⟨s, h⟩ d) else 0

/-- Position `s` of the column is observed: its entry is not zero. -/
def colValid (col : ℕ → EReal) (s : ℕ) : Prop := col s ≠ 0

instance (col : ℕ → EReal) : DecidablePred (colValid col) := fun _ => Classical.propDecidable _

/-- The value a scan carries with a previous-observed index `p`: the entry there, or zero when there is none. -/
def valAtPrev (col : ℕ → EReal) (p : ℤ) : EReal := if 0 ≤ p then col p.toNat else 0

/-- The value a scan carries with a next-observed index `q`: the entry there, or zero when there is none. -/
def valAtNext (col : ℕ → EReal) (q : ℤ) : EReal := if q < 4096 then col q.toNat else 0

/-- The pointwise end of both programs: from the entry `xt`, its observed bit `vb`, the position `tb`, the previous and
    next observed positions `pv`, `nv` as words, and the entries `a`, `b` at the run's two ends. -/
def tail (vb : BitVec 1) (xt : EReal) (tb pv nv : BitVec 32) (a b : EReal) : EReal :=
  let start := IntOp.maxsi pv 0#32
  let en := Scalar.select (IntOp.cmpi .slt nv 4096#32) nv 4095#32
  let denom := IntOp.subi (IntOp.subi en start) 1#32
  let trel : EReal := FloatOps.sitofp (F := Ideal) .f32 (IntOp.subi tb start)
  let denf : EReal := FloatOps.sitofp (F := Ideal) .f32 (IntOp.maxsi denom 1#32)
  let interp : EReal := FloatOps.addf (F := Ideal) (φ := .f32) a (FloatOps.divf (F := Ideal) (φ := .f32) (FloatOps.mulf (F := Ideal) (φ := .f32) trel (FloatOps.subf (F := Ideal) (φ := .f32) b a)) denf)
  let fill : EReal := Scalar.select (IntOp.cmpi .sgt denom 0#32) interp a
  let keep := IntOp.ori (IntOp.ori vb (IntOp.cmpi .sge start en)) (IntOp.cmpi .sge tb en)
  Scalar.select keep xt fill

/-- The operator on one column, at position `t`. -/
def imputeCol (col : ℕ → EReal) (t : ℕ) : EReal :=
  let pv := prevIdx (colValid col) (t + 1) t
  let nv := nextIdx 4096 (colValid col) (4096 - t) t
  tail (BitVec.ofBool (decide (col t ≠ 0))) (col t) (BitVec.ofNat 32 t) (bv pv) (bv nv)
    (col (max pv 0).toNat) (col (if nv < 4096 then nv else 4095).toNat)

/-- The operator on the whole array: every column by itself. -/
def imputeAll (x : (⟨3, ![64, 4096, 128]⟩ : Shape).Idx → EReal) : (⟨3, ![64, 4096, 128]⟩ : Shape).Idx → EReal :=
  fun i => imputeCol (colOf x (i 0) (i 2)) (i 1).val

end Cert.Impute

end
-- ==== Proof.KernelDefs.lean ====
/-
  The kernel body as twelve doubling steps. The body carries two pairs (index, value) along the time axis of its
  block: forward, "the larger index wins" (the previous observed position and the entry there), and backward, "the
  smaller index wins" (the next observed position and the entry there). A step with offset o compares every position
  with the one o before it (forward) or o after it (backward: a rotation by 4096 - o), positions that would wrap
  around the block's end reading the neutral index instead. The body's last lines turn the two pairs into the filled
  entry, position by position.
-/
import proofs.«107573_j29815662968985_1_alg».proof.Proof.Gen.KernelIdeal.Frame
import proofs.«107573_j29815662968985_1_alg».proof.Proof.Spec

noncomputable section

namespace Cert.Impute.K

open Cert.KernelIdeal Cert.KernelIdeal.Gen Idealize.ShloMosaic Idealize.ShloMosaic.TcCoe Idealize.SL.Sem

variable {F : FTy → Type} [FloatOps F]

/-- The position along the time axis, as a word, at every index of the block. -/
def iotaT : IVec S1x4096x128 32 := iota .tc S1x4096x128 32 [1] iota_S1x4096x128_d1_w32

/-- The observed bit of every entry. -/
def validV (x : Vec F S1x4096x128 .f32) : IVec S1x4096x128 1 :=
  cmpf .one x (broadcast S1x4096x128 (Scalar.ofBits .f32 0x00000000#32))

/-- The forward scan's first index vector: the position where observed, -1 elsewhere. -/
def idxF0 (x : Vec F S1x4096x128 .f32) : IVec S1x4096x128 32 :=
  select (validV x) iotaT (broadcast S1x4096x128 4294967295#32)

/-- The backward scan's first index vector: the position where observed, 4096 elsewhere. -/
def idxB0 (x : Vec F S1x4096x128 .f32) : IVec S1x4096x128 32 :=
  select (validV x) iotaT (broadcast S1x4096x128 4096#32)

/-- The index vector moved forward by `o` positions, -1 in the first `o`. -/
def fwdShift (o : BitVec 32) (I : IVec S1x4096x128 32) : IVec S1x4096x128 32 :=
  select (cmpi .slt iotaT (broadcast S1x4096x128 o)) (broadcast S1x4096x128 4294967295#32)
    (dynamicRotate 1 o none I rotates_S1x4096x128_d1)

/-- One forward step on the indices: the moved index where it is larger. -/
def fwdI (o : BitVec 32) (I : IVec S1x4096x128 32) : IVec S1x4096x128 32 :=
  select (cmpi .sgt (fwdShift o I) I) (fwdShift o I) I

/-- One forward step on the values: the moved value where the moved index is larger. -/
def fwdV (o : BitVec 32) (I : IVec S1x4096x128 32) (V : FVec F S1x4096x128 .f32) : FVec F S1x4096x128 .f32 :=
  select (cmpi .sgt (fwdShift o I) I) (dynamicRotate 1 o none V rotates_S1x4096x128_d1) V

/-- The index vector moved backward: rotated by `o = 4096 - offset`, 4096 at the positions at or past `o`. -/
def bwdShift (o : BitVec 32) (J : IVec S1x4096x128 32) : IVec S1x4096x128 32 :=
  select (cmpi .sge iotaT (broadcast S1x4096x128 o)) (broadcast S1x4096x128 4096#32)
    (dynamicRotate 1 o none J rotates_S1x4096x128_d1)

/-- One backward step on the indices: the moved index where it is smaller. -/
def bwdI (o : BitVec 32) (J : IVec S1x4096x128 32) : IVec S1x4096x128 32 :=
  select (cmpi .slt (bwdShift o J) J) (bwdShift o J) J

/-- One backward step on the values. -/
def bwdV (o : BitVec 32) (J : IVec S1x4096x128 32) (V : FVec F S1x4096x128 .f32) : FVec F S1x4096x128 .f32 :=
  select (cmpi .slt (bwdShift o J) J) (dynamicRotate 1 o none V rotates_S1x4096x128_d1) V

/-! ## The twelve forward steps (offsets 1, 2, 4, …, 2048) -/

def fI1 (x : Vec F S1x4096x128 .f32) : IVec S1x4096x128 32 := fwdI 1#32 (idxF0 x)
def fV1 (x : Vec F S1x4096x128 .f32) : FVec F S1x4096x128 .f32 := fwdV 1#32 (idxF0 x) (x)
def fI2 (x : Vec F S1x4096x128 .f32) : IVec S1x4096x128 32 := fwdI 2#32 (fI1 x)
def fV2 (x : Vec F S1x4096x128 .f32) : FVec F S1x4096x128 .f32 := fwdV 2#32 (fI1 x) (fV1 x)
def fI3 (x : Vec F S1x4096x128 .f32) : IVec S1x4096x128 32 := fwdI 4#32 (fI2 x)
def fV3 (x : Vec F S1x4096x128 .f32) : FVec F S1x4096x128 .f32 := fwdV 4#32 (fI2 x) (fV2 x)
def fI4 (x : Vec F S1x4096x128 .f32) : IVec S1x4096x128 32 := fwdI 8#32 (fI3 x)
def fV4 (x : Vec F S1x4096x128 .f32) : FVec F S1x4096x128 .f32 := fwdV 8#32 (fI3 x) (fV3 x)
def fI5 (x : Vec F S1x4096x128 .f32) : IVec S1x4096x128 32 := fwdI 16#32 (fI4 x)
def fV5 (x : Vec F S1x4096x128 .f32) : FVec F S1x4096x128 .f32 := fwdV 16#32 (fI4 x) (fV4 x)
def fI6 (x : Vec F S1x4096x128 .f32) : IVec S1x4096x128 32 := fwdI 32#32 (fI5 x)
def fV6 (x : Vec F S1x4096x128 .f32) : FVec F S1x4096x128 .f32 := fwdV 32#32 (fI5 x) (fV5 x)
def fI7 (x : Vec F S1x4096x128 .f32) : IVec S1x4096x128 32 := fwdI 64#32 (fI6 x)
def fV7 (x : Vec F S1x4096x128 .f32) : FVec F S1x4096x128 .f32 := fwdV 64#32 (fI6 x) (fV6 x)
def fI8 (x : Vec F S1x4096x128 .f32) : IVec S1x4096x128 32 := fwdI 128#32 (fI7 x)
def fV8 (x : Vec F S1x4096x128 .f32) : FVec F S1x4096x128 .f32 := fwdV 128#32 (fI7 x) (fV7 x)
def fI9 (x : Vec F S1x4096x128 .f32) : IVec S1x4096x128 32 := fwdI 256#32 (fI8 x)
def fV9 (x : Vec F S1x4096x128 .f32) : FVec F S1x4096x128 .f32 := fwdV 256#32 (fI8 x) (fV8 x)
def fI10 (x : Vec F S1x4096x128 .f32) : IVec S1x4096x128 32 := fwdI 512#32 (fI9 x)
def fV10 (x : Vec F S1x4096x128 .f32) : FVec F S1x4096x128 .f32 := fwdV 512#32 (fI9 x) (fV9 x)
def fI11 (x : Vec F S1x4096x128 .f32) : IVec S1x4096x128 32 := fwdI 1024#32 (fI10 x)
def fV11 (x : Vec F S1x4096x128 .f32) : FVec F S1x4096x128 .f32 := fwdV 1024#32 (fI10 x) (fV10 x)
def fI12 (x : Vec F S1x4096x128 .f32) : IVec S1x4096x128 32 := fwdI 2048#32 (fI11 x)
def fV12 (x : Vec F S1x4096x128 .f32) : FVec F S1x4096x128 .f32 := fwdV 2048#32 (fI11 x) (fV11 x)

/-! ## The twelve backward steps (rotations by 4095, 4094, 4092, …, 2048) -/

def bI1 (x : Vec F S1x4096x128 .f32) : IVec S1x4096x128 32 := bwdI 4095#32 (idxB0 x)
def bV1 (x : Vec F S1x4096x128 .f32) : FVec F S1x4096x128 .f32 := bwdV 4095#32 (idxB0 x) (x)
def bI2 (x : Vec F S1x4096x128 .f32) : IVec S1x4096x128 32 := bwdI 4094#32 (bI1 x)
def bV2 (x : Vec F S1x4096x128 .f32) : FVec F S1x4096x128 .f32 := bwdV 4094#32 (bI1 x) (bV1 x)
def bI3 (x : Vec F S1x4096x128 .f32) : IVec S1x4096x128 32 := bwdI 4092#32 (bI2 x)
def bV3 (x : Vec F S1x4096x128 .f32) : FVec F S1x4096x128 .f32 := bwdV 4092#32 (bI2 x) (bV2 x)
def bI4 (x : Vec F S1x4096x128 .f32) : IVec S1x4096x128 32 := bwdI 4088#32 (bI3 x)
def bV4 (x : Vec F S1x4096x128 .f32) : FVec F S1x4096x128 .f32 := bwdV 4088#32 (bI3 x) (bV3 x)
def bI5 (x : Vec F S1x4096x128 .f32) : IVec S1x4096x128 32 := bwdI 4080#32 (bI4 x)
def bV5 (x : Vec F S1x4096x128 .f32) : FVec F S1x4096x128 .f32 := bwdV 4080#32 (bI4 x) (bV4 x)
def bI6 (x : Vec F S1x4096x128 .f32) : IVec S1x4096x128 32 := bwdI 4064#32 (bI5 x)
def bV6 (x : Vec F S1x4096x128 .f32) : FVec F S1x4096x128 .f32 := bwdV 4064#32 (bI5 x) (bV5 x)
def bI7 (x : Vec F S1x4096x128 .f32) : IVec S1x4096x128 32 := bwdI 4032#32 (bI6 x)
def bV7 (x : Vec F S1x4096x128 .f32) : FVec F S1x4096x128 .f32 := bwdV 4032#32 (bI6 x) (bV6 x)
def bI8 (x : Vec F S1x4096x128 .f32) : IVec S1x4096x128 32 := bwdI 3968#32 (bI7 x)
def bV8 (x : Vec F S1x4096x128 .f32) : FVec F S1x4096x128 .f32 := bwdV 3968#32 (bI7 x) (bV7 x)
def bI9 (x : Vec F S1x4096x128 .f32) : IVec S1x4096x128 32 := bwdI 3840#32 (bI8 x)
def bV9 (x : Vec F S1x4096x128 .f32) : FVec F S1x4096x128 .f32 := bwdV 3840#32 (bI8 x) (bV8 x)
def bI10 (x : Vec F S1x4096x128 .f32) : IVec S1x4096x128 32 := bwdI 3584#32 (bI9 x)
def bV10 (x : Vec F S1x4096x128 .f32) : FVec F S1x4096x128 .f32 := bwdV 3584#32 (bI9 x) (bV9 x)
def bI11 (x : Vec F S1x4096x128 .f32) : IVec S1x4096x128 32 := bwdI 3072#32 (bI10 x)
def bV11 (x : Vec F S1x4096x128 .f32) : FVec F S1x4096x128 .f32 := bwdV 3072#32 (bI10 x) (bV10 x)
def bI12 (x : Vec F S1x4096x128 .f32) : IVec S1x4096x128 32 := bwdI 2048#32 (bI11 x)
def bV12 (x : Vec F S1x4096x128 .f32) : FVec F S1x4096x128 .f32 := bwdV 2048#32 (bI11 x) (bV11 x)

/-- The body's last lines, on vectors: from the block `x`, the forward pair `(I, A)` and the backward pair `(J, Bv)`. -/
def vtail (x : Vec F S1x4096x128 .f32) (I : IVec S1x4096x128 32) (A : FVec F S1x4096x128 .f32)
    (J : IVec S1x4096x128 32) (Bv : FVec F S1x4096x128 .f32) : Vec F S1x4096x128 .f32 :=
  let start := maxsi I (broadcast S1x4096x128 0#32)
  let en := select (cmpi .slt J (broadcast S1x4096x128 4096#32)) J (broadcast S1x4096x128 4095#32)
  let denom := subi (subi en start) (broadcast S1x4096x128 1#32)
  let trel : FVec F S1x4096x128 .f32 := sitofp .f32 (subi iotaT start)
  let denf : FVec F S1x4096x128 .f32 := sitofp .f32 (maxsi denom (broadcast S1x4096x128 1#32))
  let interp := addf A (divf (mulf trel (subf Bv A)) denf)
  let fill := select (cmpi .sgt denom (broadcast S1x4096x128 0#32)) interp A
  let keep := ori (ori (validV x) (cmpi .sge start en)) (cmpi .sge iotaT en)
  select keep x fill

/-- What the body stores, as the twelve steps each way and the last lines. -/
theorem out0_1_eq (x0 : Vec F S1x4096x128 .f32) :
    out0_1 x0 = View.canon [⟨r0_0, vtail (View.ld x0 r0_0) (fI12 (View.ld x0 r0_0)) (fV12 (View.ld x0 r0_0))
      (bI12 (View.ld x0 r0_0)) (bV12 (View.ld x0 r0_0))⟩] := rfl

end Cert.Impute.K

end
-- ==== Proof.PrevNext.lean ====
/-
  The two window searches of the column specification: bounds, what a found position is, what "none found" excludes,
  how a window of n + m positions splits into one of n and one of m, and that a window longer than the column's end adds nothing.
-/
import proofs.«107573_j29815662968985_1_alg».proof.Proof.Spec

namespace Cert.Impute

variable (valid : ℕ → Prop) [DecidablePred valid]

/-! ## The previous observed position -/

/-- An empty window finds nothing. -/
private theorem prevIdx_zero_aux (t : ℕ) : prevIdx valid 0 t = -1 := by
  cases t <;> rfl

/-- One step of the search, away from position 0. -/
private theorem prevIdx_ss_aux (n t : ℕ) :
    prevIdx valid (n + 1) (t + 1) = if valid (t + 1) then ((t + 1 : ℕ) : ℤ) else prevIdx valid n t := rfl

/-- One step of the search, at position 0. -/
private theorem prevIdx_sz_aux (n : ℕ) : prevIdx valid (n + 1) 0 = if valid 0 then 0 else -1 := rfl

theorem prevIdx_ge (n t : ℕ) : -1 ≤ prevIdx valid n t := by
  induction n generalizing t with
  | zero => rw [prevIdx_zero_aux]
  | succ n ih =>
    cases t with
    | zero => rw [prevIdx_sz_aux]; split_ifs <;> omega
    | succ t =>
      rw [prevIdx_ss_aux]
      split_ifs
      · push_cast; omega
      · exact ih t

theorem prevIdx_le (n t : ℕ) : prevIdx valid n t ≤ (t : ℤ) := by
  induction n generalizing t with
  | zero => rw [prevIdx_zero_aux]; omega
  | succ n ih =>
    cases t with
    | zero => rw [prevIdx_sz_aux]; split_ifs <;> simp
    | succ t =>
      rw [prevIdx_ss_aux]
      split_ifs
      · exact le_refl _
      · have := ih t; push_cast; omega

theorem prevIdx_gt (n t : ℕ) (h : 0 ≤ prevIdx valid n t) : (t : ℤ) - n < prevIdx valid n t := by
  induction n generalizing t with
  | zero => rw [prevIdx_zero_aux] at h; omega
  | succ n ih =>
    cases t with
    | zero =>
      rw [prevIdx_sz_aux] at h ⊢
      split_ifs at h ⊢
      · push_cast; omega
      · omega
    | succ t =>
      rw [prevIdx_ss_aux] at h ⊢
      split_ifs at h ⊢
      · push_cast; omega
      · have := ih t h; push_cast; omega

theorem prevIdx_neg (n t : ℕ) (h : prevIdx valid n t < 0) : prevIdx valid n t = -1 := by
  have := prevIdx_ge valid n t
  omega

theorem prevIdx_valid (n t : ℕ) (h : 0 ≤ prevIdx valid n t) : valid (prevIdx valid n t).toNat := by
  induction n generalizing t with
  | zero => rw [prevIdx_zero_aux] at h; omega
  | succ n ih =>
    cases t with
    | zero =>
      rw [prevIdx_sz_aux] at h ⊢
      split_ifs at h ⊢ with hv
      · simpa using hv
      · omega
    | succ t =>
      rw [prevIdx_ss_aux] at h ⊢
      split_ifs at h ⊢ with hv
      · rw [Int.toNat_natCast]; exact hv
      · exact ih t h

/-- None found: no position of the window is observed. -/
theorem prevIdx_none (n t : ℕ) (h : prevIdx valid n t < 0) (s : ℕ) (hs : s ≤ t) (hs' : t < s + n) : ¬ valid s := by
  induction n generalizing t with
  | zero => omega
  | succ n ih =>
    cases t with
    | zero =>
      have hs0 : s = 0 := by omega
      subst hs0
      rw [prevIdx_sz_aux] at h
      split_ifs at h with hv
      · omega
      · exact hv
    | succ t =>
      rw [prevIdx_ss_aux] at h
      split_ifs at h with hv
      · have : (0 : ℤ) ≤ ((t + 1 : ℕ) : ℤ) := Int.natCast_nonneg _
        omega
      · rcases Nat.lt_or_ge t s with hlt | hge
        · have hst : s = t + 1 := by omega
          subst hst; exact hv
        · exact ih t h hge (by omega)

theorem prevIdx_succ_succ (n t : ℕ) :
    prevIdx valid (n + 1) (t + 1) = if valid (t + 1) then ((t + 1 : ℕ) : ℤ) else prevIdx valid n t := rfl

theorem prevIdx_succ_zero (n : ℕ) : prevIdx valid (n + 1) 0 = if valid 0 then 0 else -1 := rfl

/-- A window of `n + m` positions ending at `t`: the nearer `n` positions first, then the `m` before them. -/
theorem prevIdx_add (n m t : ℕ) :
    prevIdx valid (n + m) t = if 0 ≤ prevIdx valid n t then prevIdx valid n t
      else if t < n then -1 else prevIdx valid m (t - n) := by
  induction n generalizing t with
  | zero =>
    rw [prevIdx_zero_aux, Nat.zero_add, Nat.sub_zero]
    simp
  | succ n ih =>
    have hnm : n + 1 + m = (n + m) + 1 := by omega
    rw [hnm]
    cases t with
    | zero =>
      rw [prevIdx_succ_zero, prevIdx_succ_zero]
      split_ifs <;> first | rfl | omega
    | succ t =>
      rw [prevIdx_succ_succ, prevIdx_succ_succ]
      by_cases hv : valid (t + 1)
      · rw [if_pos hv, if_pos hv, if_pos (Int.natCast_nonneg _)]
      · rw [if_neg hv, if_neg hv, ih t, Nat.add_sub_add_right]
        simp only [Nat.add_lt_add_iff_right]

/-- A window that reaches past position 0 finds what the window from 0 finds. -/
theorem prevIdx_of_lt (n t : ℕ) (h : t < n) : prevIdx valid n t = prevIdx valid (t + 1) t := by
  have hn : n = (t + 1) + (n - (t + 1)) := by omega
  rw [hn, prevIdx_add]
  split_ifs with h0 h1
  · rfl
  · exact (prevIdx_neg valid (t + 1) t (by omega)).symm
  · omega

/-! ## The next observed position -/

variable (T : ℕ)

/-- An empty window finds nothing. -/
private theorem nextIdx_zero_aux (t : ℕ) : nextIdx T valid 0 t = (T : ℤ) := rfl

/-- One step of the search. -/
private theorem nextIdx_s_aux (n t : ℕ) :
    nextIdx T valid (n + 1) t = if T ≤ t then (T : ℤ) else if valid t then (t : ℤ) else nextIdx T valid n (t + 1) := rfl

/-- A window that starts at or past the column's end finds nothing. -/
private theorem nextIdx_of_end_le (n t : ℕ) (h : T ≤ t) : nextIdx T valid n t = (T : ℤ) := by
  cases n with
  | zero => rfl
  | succ n => rw [nextIdx_s_aux, if_pos h]

theorem nextIdx_le (n t : ℕ) : nextIdx T valid n t ≤ (T : ℤ) := by
  induction n generalizing t with
  | zero => rw [nextIdx_zero_aux]
  | succ n ih =>
    rw [nextIdx_s_aux]
    split_ifs
    · exact le_refl _
    · omega
    · exact ih (t + 1)

theorem nextIdx_ge (n t : ℕ) (ht : t ≤ T) : (t : ℤ) ≤ nextIdx T valid n t := by
  induction n generalizing t with
  | zero => rw [nextIdx_zero_aux]; omega
  | succ n ih =>
    rw [nextIdx_s_aux]
    split_ifs with h1 h2
    · omega
    · exact le_refl _
    · have := ih (t + 1) (by omega); push_cast at this; omega

theorem nextIdx_lt (n t : ℕ) (h : nextIdx T valid n t < T) : nextIdx T valid n t < (t : ℤ) + n := by
  induction n generalizing t with
  | zero => rw [nextIdx_zero_aux] at h; omega
  | succ n ih =>
    rw [nextIdx_s_aux] at h ⊢
    split_ifs at h ⊢
    · omega
    · push_cast; omega
    · have := ih (t + 1) h; push_cast at this ⊢; omega

theorem nextIdx_valid (n t : ℕ) (h : nextIdx T valid n t < T) : valid (nextIdx T valid n t).toNat := by
  induction n generalizing t with
  | zero => rw [nextIdx_zero_aux] at h; omega
  | succ n ih =>
    rw [nextIdx_s_aux] at h ⊢
    split_ifs at h ⊢ with h1 hv
    · omega
    · rw [Int.toNat_natCast]; exact hv
    · exact ih (t + 1) h

/-- None found: no position of the window (inside the column) is observed. -/
theorem nextIdx_none (n t : ℕ) (h : (T : ℤ) ≤ nextIdx T valid n t) (s : ℕ) (hs : t ≤ s) (hs' : s < t + n) (hT : s < T) :
    ¬ valid s := by
  induction n generalizing t with
  | zero => omega
  | succ n ih =>
    rw [nextIdx_s_aux] at h
    split_ifs at h with h1 hv
    · omega
    · omega
    · rcases Nat.lt_or_ge t s with hlt | hge
      · exact ih (t + 1) h hlt (by omega)
      · have hst : s = t := by omega
        subst hst; exact hv

theorem nextIdx_succ (n t : ℕ) :
    nextIdx T valid (n + 1) t = if T ≤ t then (T : ℤ) else if valid t then (t : ℤ) else nextIdx T valid n (t + 1) := rfl

theorem nextIdx_one (t : ℕ) : nextIdx T valid 1 t = if T ≤ t then (T : ℤ) else if valid t then (t : ℤ) else (T : ℤ) := rfl

/-- A window of `n + m` positions starting at `t`: the nearer `n` positions first, then the `m` after them. -/
theorem nextIdx_add (n m t : ℕ) :
    nextIdx T valid (n + m) t = if nextIdx T valid n t < T then nextIdx T valid n t
      else if T ≤ t + n then (T : ℤ) else nextIdx T valid m (t + n) := by
  induction n generalizing t with
  | zero =>
    rw [nextIdx_zero_aux, Nat.zero_add, Nat.add_zero, if_neg (lt_irrefl _)]
    split_ifs with h1
    · exact nextIdx_of_end_le valid T m t h1
    · rfl
  | succ n ih =>
    have hnm : n + 1 + m = (n + m) + 1 := by omega
    rw [hnm, nextIdx_succ, nextIdx_succ]
    by_cases h1 : T ≤ t
    · rw [if_pos h1, if_pos h1, if_neg (lt_irrefl _), if_pos (by omega)]
    · rw [if_neg h1, if_neg h1]
      by_cases hv : valid t
      · rw [if_pos hv, if_pos hv, if_pos (by omega)]
      · rw [if_neg hv, if_neg hv, ih (t + 1)]
        have e : t + 1 + n = t + (n + 1) := by omega
        rw [e]

/-- A window that reaches past the column's end finds what the window up to the end finds. -/
theorem nextIdx_of_le (n t : ℕ) (h : T ≤ t + n) (ht : t ≤ T) : nextIdx T valid n t = nextIdx T valid (T - t) t := by
  have hn : n = (T - t) + (n - (T - t)) := by omega
  rw [hn, nextIdx_add]
  split_ifs with h0 h1
  · rfl
  · have := nextIdx_le valid T (T - t) t
    omega
  · omega

end Cert.Impute
-- ==== Proof.Words.lean ====
/-
  32-bit words that hold small integers: the signed comparisons, maximum, minimum and the selects of the two programs
  read on the integers the words stand for.
-/
import proofs.«107573_j29815662968985_1_alg».proof.Proof.Spec

namespace Cert.Impute

open Idealize.ShloMosaic

/-- The integers a 32-bit word holds as a signed number. -/
def Small (a : ℤ) : Prop := -2147483648 ≤ a ∧ a < 2147483648

theorem bv_natCast (n : ℕ) : bv (n : ℤ) = BitVec.ofNat 32 n := by
  simp only [bv, BitVec.ofInt_natCast]

theorem bv_neg_one : bv (-1) = 4294967295#32 := by
  decide

theorem bv_toInt (a : ℤ) (ha : Small a) : (bv a).toInt = a := by
  obtain ⟨h1, h2⟩ := ha
  simp only [bv, BitVec.toInt_ofInt]
  rw [Int.bmod_def]
  split <;> omega

theorem bv_toNat (a : ℤ) (h0 : 0 ≤ a) (ha : Small a) : (bv a).toNat = a.toNat := by
  obtain ⟨h1, h2⟩ := ha
  simp only [bv, BitVec.toNat_ofInt]
  omega

theorem bv_inj (a b : ℤ) (ha : Small a) (hb : Small b) (h : bv a = bv b) : a = b := by
  rw [← bv_toInt a ha, ← bv_toInt b hb, h]

theorem slt_bv (a b : ℤ) (ha : Small a) (hb : Small b) : (bv a).slt (bv b) = decide (a < b) := by
  unfold BitVec.slt
  rw [bv_toInt a ha, bv_toInt b hb]

theorem sle_bv (a b : ℤ) (ha : Small a) (hb : Small b) : (bv a).sle (bv b) = decide (a ≤ b) := by
  unfold BitVec.sle
  rw [bv_toInt a ha, bv_toInt b hb]

theorem cmpi_slt_bv (a b : ℤ) (ha : Small a) (hb : Small b) : IntOp.cmpi .slt (bv a) (bv b) = BitVec.ofBool (decide (a < b)) := by
  simp only [IntOp.cmpi, slt_bv a b ha hb]

theorem cmpi_sgt_bv (a b : ℤ) (ha : Small a) (hb : Small b) : IntOp.cmpi .sgt (bv a) (bv b) = BitVec.ofBool (decide (b < a)) := by
  simp only [IntOp.cmpi, slt_bv b a hb ha]

theorem cmpi_sge_bv (a b : ℤ) (ha : Small a) (hb : Small b) : IntOp.cmpi .sge (bv a) (bv b) = BitVec.ofBool (decide (b ≤ a)) := by
  simp only [IntOp.cmpi, sle_bv b a hb ha]

theorem cmpi_sle_bv (a b : ℤ) (ha : Small a) (hb : Small b) : IntOp.cmpi .sle (bv a) (bv b) = BitVec.ofBool (decide (a ≤ b)) := by
  simp only [IntOp.cmpi, sle_bv a b ha hb]

theorem maxsi_bv (a b : ℤ) (ha : Small a) (hb : Small b) : IntOp.maxsi (bv a) (bv b) = bv (max a b) := by
  unfold IntOp.maxsi
  rw [slt_bv b a hb ha]
  by_cases h : b < a
  · rw [if_pos (by simpa using h), max_eq_left (le_of_lt h)]
  · rw [if_neg (by simpa using h), max_eq_right (not_lt.mp h)]

theorem minsi_bv (a b : ℤ) (ha : Small a) (hb : Small b) : IntOp.minsi (bv a) (bv b) = bv (min a b) := by
  unfold IntOp.minsi
  rw [slt_bv a b ha hb]
  by_cases h : a < b
  · rw [if_pos (by simpa using h), min_eq_left (le_of_lt h)]
  · rw [if_neg (by simpa using h), min_eq_right (not_lt.mp h)]

theorem addi_bv (a b : ℤ) : IntOp.addi (bv a) (bv b) = bv (a + b) := by
  simp only [IntOp.addi, bv, BitVec.ofInt_add]

theorem select_ofBool {α : Type} (p : Bool) (x y : α) : Scalar.select (BitVec.ofBool p) x y = if p then x else y := by
  cases p <;> simp [Scalar.select]

theorem andi_ofBool (p q : Bool) : IntOp.andi (BitVec.ofBool p) (BitVec.ofBool q) = BitVec.ofBool (p && q) := by
  cases p <;> cases q <;> decide

end Cert.Impute
-- ==== Proof.KernelFwd.lean ====
/-
  The forward scan finds the previous observed position. After the steps with offsets 1, 2, …, n/2 every position t
  holds the greatest observed position of the window of n positions ending at t (or -1), together with the entry there
  (or zero): a step with offset n joins the window of n positions ending at t with the one ending at t - n, and the
  nearer window wins whenever it holds an observed position at all.
-/
import proofs.«107573_j29815662968985_1_alg».proof.Proof.KernelDefs
import proofs.«107573_j29815662968985_1_alg».proof.Proof.PrevNext
import proofs.«107573_j29815662968985_1_alg».proof.Proof.Words
import Idealize.ShloMosaic.Lib.KernelVsHost
import Idealize.ShloMosaic.Lib.Pipeline.Value

noncomputable section

namespace Cert.Impute.K

open Cert.KernelIdeal Cert.KernelIdeal.Gen Idealize.ShloMosaic Idealize.ShloMosaic.ValueIdx

/-- After a forward scan over windows of `n` positions: index and carried value at every position of every column. -/
def FwdInv (x : Vec Ideal S1x4096x128 .f32) (n : ℕ) (I : IVec S1x4096x128 32) (V : FVec Ideal S1x4096x128 .f32) : Prop :=
  ∀ (t : Fin 4096) (d : Fin 128),
    I (ix3 (0 : Fin 1) t d) = bv (prevIdx (colValid (colOf x 0 d)) n t.val) ∧
    V (ix3 (0 : Fin 1) t d) = valAtPrev (colOf x 0 d) (prevIdx (colValid (colOf x 0 d)) n t.val)

/-! ## The vector operations read at one index -/

/-- The position vector holds the time coordinate. -/
private theorem iotaT_apply (t : Fin 4096) (d : Fin 128) :
    iotaT (ix3 (0 : Fin 1) t d) = BitVec.ofNat 32 t.val := by
  unfold iotaT
  rw [iota_single_apply]

/-- A rotation by `n` along the time axis, read at a position `t ≥ n`, is the operand at `t - n`. -/
private theorem rot_apply {α : Type} (n : ℕ) (hn : n < 4096) (X : S1x4096x128.Idx → α) (t : Fin 4096) (d : Fin 128)
    (hnt : n ≤ t.val) :
    dynamicRotate 1 (BitVec.ofNat 32 n) none X rotates_S1x4096x128_d1 (ix3 (0 : Fin 1) t d)
      = X (ix3 (0 : Fin 1) ⟨t.val - n, by omega⟩ d) := by
  apply dynamicRotate_apply
  intro b
  have hsz : (BitVec.ofNat 32 n).toNat = n := by
    rw [BitVec.toNat_ofNat]; exact Nat.mod_eq_of_lt (by omega)
  match b with
  | ⟨0, _⟩ => rfl
  | ⟨1, _⟩ =>
    show t.val - n = (t.val + 4096 - (BitVec.ofNat 32 n).toNat % 4096) % 4096
    rw [hsz, Nat.mod_eq_of_lt hn]
    have := t.isLt
    omega
  | ⟨2, _⟩ => rfl

/-- The observed bit of an entry: the entry is not zero. -/
private theorem validV_apply (x : Vec Ideal S1x4096x128 .f32) (i : S1x4096x128.Idx) :
    validV x i = BitVec.ofBool (decide (x i ≠ 0)) := by
  show Ideal.cmp .one (x i) (Ideal.ofBits .f32 0x00000000#32) = _
  rw [Ideal.ofBits_zero_f32]
  rfl

/-- The column's entry at a position inside the block is the block's entry there. -/
private theorem colOf_apply (x : Vec Ideal S1x4096x128 .f32) (t : Fin 4096) (d : Fin 128) :
    colOf x 0 d t.val = x (ix3 (0 : Fin 1) t d) := by
  unfold colOf
  rw [dif_pos t.isLt]

/-- A window of one position: the position itself when observed. -/
private theorem prevIdx_one (valid : ℕ → Prop) [DecidablePred valid] (t : ℕ) :
    prevIdx valid 1 t = if valid t then (t : ℤ) else -1 := by
  cases t with
  | zero => rw [prevIdx_succ_zero]; rfl
  | succ t =>
    rw [prevIdx_succ_succ]
    have h0 : prevIdx valid 0 t = -1 := by cases t <;> rfl
    rw [h0]

/-- A select on a decided proposition is an `if` on it. -/
private theorem select_dec {α : Type} (P : Prop) [Decidable P] (a b : α) :
    Scalar.select (BitVec.ofBool (decide P)) a b = if P then a else b := by
  rw [select_ofBool]
  by_cases h : P <;> simp [h]

/-- The moved index vector in the first `n` positions: none found. -/
private theorem fwdShift_lt (n : ℕ) (hn : n < 4096) (I : IVec S1x4096x128 32) (t : Fin 4096) (d : Fin 128)
    (hlt : t.val < n) :
    fwdShift (BitVec.ofNat 32 n) I (ix3 (0 : Fin 1) t d) = bv (-1) := by
  show Scalar.select (IntOp.cmpi .slt (iotaT (ix3 (0 : Fin 1) t d)) (BitVec.ofNat 32 n)) (4294967295#32)
    (dynamicRotate 1 (BitVec.ofNat 32 n) none I rotates_S1x4096x128_d1 (ix3 (0 : Fin 1) t d)) = _
  have ht := t.isLt
  rw [iotaT_apply, ← bv_natCast, ← bv_natCast,
    cmpi_slt_bv _ _ (by constructor <;> omega) (by constructor <;> omega), select_ofBool, bv_neg_one]
  have : ((t.val : ℤ) < (n : ℤ)) := by exact_mod_cast hlt
  simp [this]

/-- The moved index vector from position `n` on: the index vector `n` positions earlier. -/
private theorem fwdShift_ge (n : ℕ) (hn : n < 4096) (I : IVec S1x4096x128 32) (t : Fin 4096) (d : Fin 128)
    (hge : n ≤ t.val) :
    fwdShift (BitVec.ofNat 32 n) I (ix3 (0 : Fin 1) t d) = I (ix3 (0 : Fin 1) ⟨t.val - n, by omega⟩ d) := by
  show Scalar.select (IntOp.cmpi .slt (iotaT (ix3 (0 : Fin 1) t d)) (BitVec.ofNat 32 n)) (4294967295#32)
    (dynamicRotate 1 (BitVec.ofNat 32 n) none I rotates_S1x4096x128_d1 (ix3 (0 : Fin 1) t d)) = _
  have ht := t.isLt
  rw [iotaT_apply, ← bv_natCast, ← bv_natCast,
    cmpi_slt_bv _ _ (by constructor <;> omega) (by constructor <;> omega), select_ofBool, bv_natCast,
    rot_apply n hn I t d hge]
  have : ¬ ((t.val : ℤ) < (n : ℤ)) := by push_cast; omega
  simp [this]

/-- One forward step on the indices, at one index. -/
private theorem fwdI_apply (o : BitVec 32) (I : IVec S1x4096x128 32) (i : S1x4096x128.Idx) :
    fwdI o I i = Scalar.select (IntOp.cmpi .sgt (fwdShift o I i) (I i)) (fwdShift o I i) (I i) := rfl

/-- One forward step on the values, at one index. -/
private theorem fwdV_apply (o : BitVec 32) (I : IVec S1x4096x128 32) (V : FVec Ideal S1x4096x128 .f32) (i : S1x4096x128.Idx) :
    fwdV o I V i = Scalar.select (IntOp.cmpi .sgt (fwdShift o I i) (I i))
      (dynamicRotate 1 o none V rotates_S1x4096x128_d1 i) (V i) := rfl

/-! ## The scan -/

theorem fwd_init (x : Vec Ideal S1x4096x128 .f32) : FwdInv x 1 (idxF0 x) x := by
  intro t d
  rw [prevIdx_one]
  have hc := colOf_apply x t d
  by_cases hv : colValid (colOf x 0 d) t.val
  · rw [if_pos hv]
    have hx : x (ix3 (0 : Fin 1) t d) ≠ 0 := by rw [← hc]; exact hv
    constructor
    · show Scalar.select (validV x (ix3 (0 : Fin 1) t d)) (iotaT (ix3 (0 : Fin 1) t d)) (4294967295#32) = _
      rw [validV_apply, iotaT_apply, select_ofBool, bv_natCast]
      simp [hx]
    · unfold valAtPrev
      rw [if_pos (Int.natCast_nonneg _), Int.toNat_natCast, hc]
  · rw [if_neg hv]
    have hx : x (ix3 (0 : Fin 1) t d) = 0 := by
      rw [← hc]; unfold colValid at hv; exact not_not.mp hv
    constructor
    · show Scalar.select (validV x (ix3 (0 : Fin 1) t d)) (iotaT (ix3 (0 : Fin 1) t d)) (4294967295#32) = _
      rw [validV_apply, iotaT_apply, select_ofBool, bv_neg_one]
      simp [hx]
    · unfold valAtPrev
      rw [if_neg (by omega), hx]

theorem fwd_step (x : Vec Ideal S1x4096x128 .f32) (n : ℕ) (o : BitVec 32) (I : IVec S1x4096x128 32)
    (V : FVec Ideal S1x4096x128 .f32) (hn : 1 ≤ n) (hn' : n < 4096) (ho : o = BitVec.ofNat 32 n)
    (h : FwdInv x n I V) : FwdInv x (n + n) (fwdI o I) (fwdV o I V) := by
  subst ho
  intro t d
  have ht := t.isLt
  obtain ⟨hI, hV⟩ := h t d
  have hpge := prevIdx_ge (colValid (colOf x 0 d)) n t.val
  have hple := prevIdx_le (colValid (colOf x 0 d)) n t.val
  have hsp : Small (prevIdx (colValid (colOf x 0 d)) n t.val) := by constructor <;> omega
  rw [prevIdx_add (colValid (colOf x 0 d)) n n t.val, fwdI_apply, fwdV_apply, hI, hV]
  by_cases hlt : t.val < n
  · -- the earlier window lies wholly before the column: nothing is taken
    rw [fwdShift_lt n hn' I t d hlt, cmpi_sgt_bv _ _ (by constructor <;> omega) hsp, select_dec, select_dec]
    have hnt : ¬ (prevIdx (colValid (colOf x 0 d)) n t.val < -1) := by omega
    rw [if_neg hnt, if_neg hnt, if_pos hlt]
    by_cases h0 : 0 ≤ prevIdx (colValid (colOf x 0 d)) n t.val
    · rw [if_pos h0]; exact ⟨rfl, rfl⟩
    · rw [if_neg h0, prevIdx_neg _ n t.val (by omega)]; exact ⟨rfl, rfl⟩
  · have hge : n ≤ t.val := by omega
    obtain ⟨hI', hV'⟩ := h ⟨t.val - n, by omega⟩ d
    have hqge := prevIdx_ge (colValid (colOf x 0 d)) n (t.val - n)
    have hqle := prevIdx_le (colValid (colOf x 0 d)) n (t.val - n)
    have hcast : ((t.val - n : ℕ) : ℤ) = (t.val : ℤ) - n := by omega
    have hsq : Small (prevIdx (colValid (colOf x 0 d)) n (t.val - n)) := by constructor <;> omega
    rw [fwdShift_ge n hn' I t d hge, rot_apply n hn' V t d hge, hI', hV', cmpi_sgt_bv _ _ hsq hsp,
      select_dec, select_dec, if_neg hlt]
    by_cases h0 : 0 ≤ prevIdx (colValid (colOf x 0 d)) n t.val
    · -- the nearer window holds an observed position, later than every position of the earlier window
      have hgt := prevIdx_gt (colValid (colOf x 0 d)) n t.val h0
      have hnt : ¬ (prevIdx (colValid (colOf x 0 d)) n t.val < prevIdx (colValid (colOf x 0 d)) n (t.val - n)) := by
        omega
      rw [if_pos h0, if_neg hnt, if_neg hnt]
      exact ⟨rfl, rfl⟩
    · -- the nearer window holds none: the earlier window's pair is the answer, taken or not
      have hp := prevIdx_neg (colValid (colOf x 0 d)) n t.val (by omega)
      rw [if_neg h0]
      by_cases hq : prevIdx (colValid (colOf x 0 d)) n t.val < prevIdx (colValid (colOf x 0 d)) n (t.val - n)
      · rw [if_pos hq, if_pos hq]
        exact ⟨rfl, rfl⟩
      · rw [if_neg hq, if_neg hq]
        have hqp : prevIdx (colValid (colOf x 0 d)) n (t.val - n) = prevIdx (colValid (colOf x 0 d)) n t.val := by
          omega
        rw [hqp]
        exact ⟨rfl, rfl⟩

theorem fwd_final (x : Vec Ideal S1x4096x128 .f32) : FwdInv x 4096 (fI12 x) (fV12 x) := by
  have h1 := fwd_step x 1 1#32 _ _ (by norm_num) (by norm_num) rfl (fwd_init x)
  have h2 := fwd_step x 2 2#32 _ _ (by norm_num) (by norm_num) rfl h1
  have h3 := fwd_step x 4 4#32 _ _ (by norm_num) (by norm_num) rfl h2
  have h4 := fwd_step x 8 8#32 _ _ (by norm_num) (by norm_num) rfl h3
  have h5 := fwd_step x 16 16#32 _ _ (by norm_num) (by norm_num) rfl h4
  have h6 := fwd_step x 32 32#32 _ _ (by norm_num) (by norm_num) rfl h5
  have h7 := fwd_step x 64 64#32 _ _ (by norm_num) (by norm_num) rfl h6
  have h8 := fwd_step x 128 128#32 _ _ (by norm_num) (by norm_num) rfl h7
  have h9 := fwd_step x 256 256#32 _ _ (by norm_num) (by norm_num) rfl h8
  have h10 := fwd_step x 512 512#32 _ _ (by norm_num) (by norm_num) rfl h9
  have h11 := fwd_step x 1024 1024#32 _ _ (by norm_num) (by norm_num) rfl h10
  have h12 := fwd_step x 2048 2048#32 _ _ (by norm_num) (by norm_num) rfl h11
  exact h12

end Cert.Impute.K

end
-- ==== Proof.KernelBwd.lean ====
/-
  The backward scan finds the next observed position. After the steps with offsets 1, 2, …, n/2 every position t
  holds the least observed position of the window of n positions starting at t (or 4096), together with the entry
  there (or zero): a step with offset n joins the window of n positions starting at t with the one starting at t + n,
  and the nearer window wins whenever it holds an observed position at all.
-/
import proofs.«107573_j29815662968985_1_alg».proof.Proof.KernelDefs
import proofs.«107573_j29815662968985_1_alg».proof.Proof.PrevNext
import proofs.«107573_j29815662968985_1_alg».proof.Proof.Words
import Idealize.ShloMosaic.Lib.KernelVsHost
import Idealize.ShloMosaic.Lib.Pipeline.Value

noncomputable section

namespace Cert.Impute.K

open Cert.KernelIdeal Cert.KernelIdeal.Gen Idealize.ShloMosaic Idealize.ShloMosaic.ValueIdx

/-- After a backward scan over windows of `n` positions: index and carried value at every position of every column. -/
def BwdInv (x : Vec Ideal S1x4096x128 .f32) (n : ℕ) (J : IVec S1x4096x128 32) (V : FVec Ideal S1x4096x128 .f32) : Prop :=
  ∀ (t : Fin 4096) (d : Fin 128),
    J (ix3 (0 : Fin 1) t d) = bv (nextIdx 4096 (colValid (colOf x 0 d)) n t.val) ∧
    V (ix3 (0 : Fin 1) t d) = valAtNext (colOf x 0 d) (nextIdx 4096 (colValid (colOf x 0 d)) n t.val)

/-- The position word at an index is its time coordinate. -/
private theorem iotaT_at (t : Fin 4096) (d : Fin 128) : iotaT (ix3 (0 : Fin 1) t d) = BitVec.ofNat 32 t.val := by
  unfold iotaT; rw [iota_single_apply]

/-- A rotation by `r` along the time axis reads the position `r` before, around the end. -/
private theorem rot_at {α : Type} (o : BitVec 32) (r : ℕ) (hr : o.toNat = r) (hr' : r < 4096) (X : S1x4096x128.Idx → α)
    (t : Fin 4096) (d : Fin 128) :
    dynamicRotate 1 o none X rotates_S1x4096x128_d1 (ix3 (0 : Fin 1) t d)
      = X (ix3 (0 : Fin 1) ⟨(t.val + 4096 - r) % 4096, Nat.mod_lt _ (by norm_num)⟩ d) := by
  apply dynamicRotate_apply
  intro b
  match b with
  | ⟨0, _⟩ => rfl
  | ⟨1, _⟩ =>
    show (t.val + 4096 - r) % 4096 = (t.val + 4096 - o.toNat % 4096) % 4096
    rw [hr, Nat.mod_eq_of_lt hr']
  | ⟨2, _⟩ => rfl

/-- The entry at an index is the column's entry at the time coordinate. -/
private theorem x_at (x : Vec Ideal S1x4096x128 .f32) (t : Fin 4096) (d : Fin 128) :
    x (ix3 (0 : Fin 1) t d) = colOf x 0 d t.val := by
  unfold colOf; rw [dif_pos t.isLt]

/-- The observed bit at an index. -/
private theorem validV_at (x : Vec Ideal S1x4096x128 .f32) (t : Fin 4096) (d : Fin 128) :
    validV x (ix3 (0 : Fin 1) t d) = BitVec.ofBool (decide (colOf x 0 d t.val ≠ 0)) := by
  rw [← x_at]
  show Ideal.cmp .one (x (ix3 (0 : Fin 1) t d)) (Ideal.ofBits .f32 0x00000000#32) = _
  rw [Ideal.ofBits_zero_f32]
  rfl

/-- The moved index vector at an index, over the words of two integers: 4096 where the move would wrap. -/
private theorem bwdShift_at (o : BitVec 32) (J : IVec S1x4096x128 32) (t : Fin 4096) (d : Fin 128) :
    bwdShift o J (ix3 (0 : Fin 1) t d)
      = Scalar.select (IntOp.cmpi .sge (BitVec.ofNat 32 t.val) o) 4096#32
          (dynamicRotate 1 o none J rotates_S1x4096x128_d1 (ix3 (0 : Fin 1) t d)) := by
  unfold bwdShift
  rw [select_apply]
  show Scalar.select (IntOp.cmpi .sge (iotaT (ix3 (0 : Fin 1) t d)) o) 4096#32 _ = _
  rw [iotaT_at]

theorem bwd_init (x : Vec Ideal S1x4096x128 .f32) : BwdInv x 1 (idxB0 x) x := by
  intro t d
  have ht := t.isLt
  have hJ : idxB0 x (ix3 (0 : Fin 1) t d)
      = if decide (colOf x 0 d t.val ≠ 0) then BitVec.ofNat 32 t.val else 4096#32 := by
    unfold idxB0
    rw [select_apply, validV_at, iotaT_at, broadcast_apply, select_ofBool]
  rw [hJ, x_at x t d, nextIdx_one, if_neg (show ¬ 4096 ≤ t.val by omega)]
  by_cases hv : colOf x 0 d t.val ≠ 0
  · rw [if_pos (show colValid (colOf x 0 d) t.val from hv),
      if_pos (show decide (colOf x 0 d t.val ≠ 0) = true by simpa using hv)]
    refine ⟨(bv_natCast _).symm, ?_⟩
    unfold valAtNext
    rw [if_pos (by omega), Int.toNat_natCast]
  · rw [if_neg (show ¬ colValid (colOf x 0 d) t.val from hv),
      if_neg (show ¬ decide (colOf x 0 d t.val ≠ 0) = true by simpa using hv)]
    refine ⟨(bv_natCast 4096).symm, ?_⟩
    unfold valAtNext
    rw [if_neg (by norm_num)]
    exact not_not.mp hv

/-- One backward step with offset `n`: the rotation amount is `4096 - n`. -/
theorem bwd_step (x : Vec Ideal S1x4096x128 .f32) (n : ℕ) (o : BitVec 32) (J : IVec S1x4096x128 32)
    (V : FVec Ideal S1x4096x128 .f32) (hn : 1 ≤ n) (hn' : n < 4096) (ho : o = BitVec.ofNat 32 (4096 - n))
    (h : BwdInv x n J V) : BwdInv x (n + n) (bwdI o J) (bwdV o J V) := by
  intro t d
  have ht := t.isLt
  -- the nearer window's answer p, and the farther window's answer q (4096 where it would start past the end)
  obtain ⟨hJ, hV⟩ := h t d
  generalize hp : nextIdx 4096 (colValid (colOf x 0 d)) n t.val = p at hJ hV
  have hple : p ≤ 4096 := by rw [← hp]; exact nextIdx_le _ 4096 n t.val
  have hpge : (t.val : ℤ) ≤ p := by rw [← hp]; exact nextIdx_ge _ 4096 n t.val (by omega)
  have hplt : p < 4096 → p < (t.val : ℤ) + n := by
    intro h1; rw [← hp] at h1 ⊢; exact nextIdx_lt _ 4096 n t.val h1
  have hadd := nextIdx_add (colValid (colOf x 0 d)) 4096 n n t.val
  rw [hp] at hadd
  simp only [Nat.cast_ofNat] at hadd
  generalize hq : (if 4096 ≤ t.val + n then (4096 : ℤ)
      else nextIdx 4096 (colValid (colOf x 0 d)) n (t.val + n)) = q at hadd
  have hqle : q ≤ 4096 := by
    rw [← hq]; split_ifs
    · exact le_refl _
    · exact nextIdx_le _ 4096 n _
  have hqge : (t.val : ℤ) + n ≤ q ∨ q = 4096 := by
    rw [← hq]; split_ifs with h1
    · exact Or.inr rfl
    · left
      have := nextIdx_ge (colValid (colOf x 0 d)) 4096 n (t.val + n) (by omega)
      push_cast at this; exact this
  have hfin : ∀ h1 : t.val + n < 4096,
      (⟨(t.val + 4096 - (4096 - n)) % 4096, Nat.mod_lt _ (by norm_num)⟩ : Fin 4096) = ⟨t.val + n, h1⟩ := by
    intro h1; exact Fin.ext (by show (t.val + 4096 - (4096 - n)) % 4096 = t.val + n; omega)
  have hotn : o.toNat = 4096 - n := by
    rw [ho, BitVec.toNat_ofNat]; omega
  have hge : IntOp.cmpi .sge (BitVec.ofNat 32 t.val) o = BitVec.ofBool (decide (4096 ≤ t.val + n)) := by
    rw [ho, ← bv_natCast, ← bv_natCast,
      cmpi_sge_bv (t.val : ℤ) ((4096 - n : ℕ) : ℤ) (by constructor <;> omega) (by constructor <;> omega)]
    congr 1
    apply decide_eq_decide.mpr
    omega
  -- the moved index is the word of q, the moved value the value carried with q (where q is a position)
  have hS : bwdShift o J (ix3 (0 : Fin 1) t d) = bv q := by
    rw [bwdShift_at, hge, select_ofBool]
    by_cases h1 : 4096 ≤ t.val + n
    · rw [if_pos (by simpa using h1), ← hq, if_pos h1]; decide
    · rw [if_neg (by simpa using h1), rot_at o (4096 - n) hotn (by omega), ← hq, if_neg h1, hfin (by omega)]
      exact (h ⟨t.val + n, by omega⟩ d).1
  have hR : q < 4096 → dynamicRotate 1 o none V rotates_S1x4096x128_d1 (ix3 (0 : Fin 1) t d)
      = valAtNext (colOf x 0 d) q := by
    intro hq4
    have h1 : ¬ 4096 ≤ t.val + n := by
      intro h1; rw [if_pos h1] at hq; omega
    rw [rot_at o (4096 - n) hotn (by omega), ← hq, if_neg h1, hfin (by omega)]
    exact (h ⟨t.val + n, by omega⟩ d).2
  have hsp : Small p := by constructor <;> omega
  have hsq : Small q := by constructor <;> omega
  have hc : IntOp.cmpi .slt (bwdShift o J (ix3 (0 : Fin 1) t d)) (J (ix3 (0 : Fin 1) t d))
      = BitVec.ofBool (decide (q < p)) := by
    rw [hS, hJ, cmpi_slt_bv q p hsq hsp]
  rw [hadd]
  constructor
  · show Scalar.select (IntOp.cmpi .slt (bwdShift o J (ix3 (0 : Fin 1) t d)) (J (ix3 (0 : Fin 1) t d)))
        (bwdShift o J (ix3 (0 : Fin 1) t d)) (J (ix3 (0 : Fin 1) t d)) = _
    rw [hc, select_ofBool, hS, hJ]
    by_cases h1 : q < p
    · rw [if_pos (by simpa using h1), if_neg (by omega)]
    · rw [if_neg (by simpa using h1)]
      by_cases h2 : p < 4096
      · rw [if_pos h2]
      · rw [if_neg h2]; congr 1; omega
  · show Scalar.select (IntOp.cmpi .slt (bwdShift o J (ix3 (0 : Fin 1) t d)) (J (ix3 (0 : Fin 1) t d)))
        (dynamicRotate 1 o none V rotates_S1x4096x128_d1 (ix3 (0 : Fin 1) t d)) (V (ix3 (0 : Fin 1) t d)) = _
    rw [hc, select_ofBool, hV]
    by_cases h1 : q < p
    · rw [if_pos (by simpa using h1), if_neg (by omega), hR (by omega)]
    · rw [if_neg (by simpa using h1)]
      by_cases h2 : p < 4096
      · rw [if_pos h2]
      · rw [if_neg h2]; congr 1; omega

theorem bwd_final (x : Vec Ideal S1x4096x128 .f32) : BwdInv x 4096 (bI12 x) (bV12 x) := by
  have h1 : BwdInv x 2 (bI1 x) (bV1 x) :=
    bwd_step x 1 4095#32 (idxB0 x) x (by norm_num) (by norm_num) rfl (bwd_init x)
  have h2 : BwdInv x 4 (bI2 x) (bV2 x) :=
    bwd_step x 2 4094#32 (bI1 x) (bV1 x) (by norm_num) (by norm_num) rfl h1
  have h3 : BwdInv x 8 (bI3 x) (bV3 x) :=
    bwd_step x 4 4092#32 (bI2 x) (bV2 x) (by norm_num) (by norm_num) rfl h2
  have h4 : BwdInv x 16 (bI4 x) (bV4 x) :=
    bwd_step x 8 4088#32 (bI3 x) (bV3 x) (by norm_num) (by norm_num) rfl h3
  have h5 : BwdInv x 32 (bI5 x) (bV5 x) :=
    bwd_step x 16 4080#32 (bI4 x) (bV4 x) (by norm_num) (by norm_num) rfl h4
  have h6 : BwdInv x 64 (bI6 x) (bV6 x) :=
    bwd_step x 32 4064#32 (bI5 x) (bV5 x) (by norm_num) (by norm_num) rfl h5
  have h7 : BwdInv x 128 (bI7 x) (bV7 x) :=
    bwd_step x 64 4032#32 (bI6 x) (bV6 x) (by norm_num) (by norm_num) rfl h6
  have h8 : BwdInv x 256 (bI8 x) (bV8 x) :=
    bwd_step x 128 3968#32 (bI7 x) (bV7 x) (by norm_num) (by norm_num) rfl h7
  have h9 : BwdInv x 512 (bI9 x) (bV9 x) :=
    bwd_step x 256 3840#32 (bI8 x) (bV8 x) (by norm_num) (by norm_num) rfl h8
  have h10 : BwdInv x 1024 (bI10 x) (bV10 x) :=
    bwd_step x 512 3584#32 (bI9 x) (bV9 x) (by norm_num) (by norm_num) rfl h9
  have h11 : BwdInv x 2048 (bI11 x) (bV11 x) :=
    bwd_step x 1024 3072#32 (bI10 x) (bV10 x) (by norm_num) (by norm_num) rfl h10
  exact bwd_step x 2048 2048#32 (bI11 x) (bV11 x) (by norm_num) (by norm_num) rfl h11

end Cert.Impute.K

end
-- ==== Proof.KernelValue.lean ====
/-
  The kernel body's stored block, read at a position of a column, is the column operator there: the two scans give the
  previous and next observed positions and the entries at the run's two ends, and the body's last lines are the
  operator's pointwise end.
-/
import proofs.«107573_j29815662968985_1_alg».proof.Proof.KernelFwd
import proofs.«107573_j29815662968985_1_alg».proof.Proof.KernelBwd

noncomputable section

namespace Cert.Impute.K

open Cert.KernelIdeal Cert.KernelIdeal.Gen Idealize.ShloMosaic Idealize.ShloMosaic.ValueIdx

theorem zero3 : (![0, 0, 0] : Fin 3 → Nat) = fun _ => 0 := funext fun a => by fin_cases a <;> rfl

/-- The body's last lines at an index are the operator's pointwise end of the seven values there. -/
theorem vtail_apply (x : Vec Ideal S1x4096x128 .f32) (I : IVec S1x4096x128 32) (A : FVec Ideal S1x4096x128 .f32)
    (J : IVec S1x4096x128 32) (Bv : FVec Ideal S1x4096x128 .f32) (i : S1x4096x128.Idx) :
    vtail x I A J Bv i = tail (validV x i) (x i) (iotaT i) (I i) (J i) (A i) (Bv i) := rfl

/-- With no observed position up to `t` the column starts with a zero, which is what the scan carries. -/
theorem valAtPrev_eq (col : ℕ → EReal) (t : ℕ) :
    valAtPrev col (prevIdx (colValid col) (t + 1) t) = col (max (prevIdx (colValid col) (t + 1) t) 0).toNat := by
  unfold valAtPrev
  by_cases h : 0 ≤ prevIdx (colValid col) (t + 1) t
  · rw [if_pos h, max_eq_left h]
  · rw [if_neg h]
    have h0 : ¬ colValid col 0 := prevIdx_none (colValid col) (t + 1) t (by omega) 0 (by omega) (by omega)
    have : max (prevIdx (colValid col) (t + 1) t) 0 = 0 := max_eq_right (by omega)
    rw [this]
    exact (not_not.mp h0).symm

/-- With no observed position from `t` on the column ends with a zero, which is what the scan carries. -/
theorem valAtNext_eq (col : ℕ → EReal) (t : ℕ) (ht : t < 4096) :
    valAtNext col (nextIdx 4096 (colValid col) (4096 - t) t)
      = col (if nextIdx 4096 (colValid col) (4096 - t) t < 4096 then nextIdx 4096 (colValid col) (4096 - t) t else 4095).toNat := by
  unfold valAtNext
  by_cases h : nextIdx 4096 (colValid col) (4096 - t) t < 4096
  · rw [if_pos h, if_pos h]
  · rw [if_neg h, if_neg h]
    have h0 : ¬ colValid col 4095 :=
      nextIdx_none (colValid col) 4096 (4096 - t) t (by push_cast; omega) 4095 (by omega) (by omega) (by omega)
    exact (not_not.mp h0).symm

theorem out_at (x0 : Vec Ideal S1x4096x128 .f32) (t : Fin 4096) (d : Fin 128) :
    out0_1 x0 (ix3 (0 : Fin 1) t d) = imputeCol (colOf x0 0 d) t.val := by
  rw [out0_1_eq, View.canon_unit_zero zero3]
  simp only [View.ld_unit_zero (S := S1x4096x128) zero3]
  rw [vtail_apply]
  obtain ⟨hI, hA⟩ := fwd_final x0 t d
  obtain ⟨hJ, hB⟩ := bwd_final x0 t d
  rw [hI, hA, hJ, hB]
  have hx : x0 (ix3 (0 : Fin 1) t d) = colOf x0 0 d t.val := by
    unfold colOf; rw [dif_pos t.isLt]
  have hp : prevIdx (colValid (colOf x0 0 d)) 4096 t.val = prevIdx (colValid (colOf x0 0 d)) (t.val + 1) t.val :=
    prevIdx_of_lt _ _ _ t.isLt
  have hq : nextIdx 4096 (colValid (colOf x0 0 d)) 4096 t.val = nextIdx 4096 (colValid (colOf x0 0 d)) (4096 - t.val) t.val :=
    nextIdx_of_le _ _ _ _ (by have := t.isLt; omega) (by have := t.isLt; omega)
  have hio : iotaT (ix3 (0 : Fin 1) t d) = BitVec.ofNat 32 t.val := by
    unfold iotaT; rw [Idealize.ShloMosaic.iota_single_apply]
  have hv : validV x0 (ix3 (0 : Fin 1) t d) = BitVec.ofBool (decide (colOf x0 0 d t.val ≠ 0)) := by
    show Ideal.cmp .one (x0 (ix3 (0 : Fin 1) t d)) (Ideal.ofBits .f32 0x00000000#32) = _
    rw [hx, Ideal.ofBits_zero_f32]
    unfold Ideal.cmp
    congr 1
  rw [hp, hq, hio, hv, hx, valAtPrev_eq, valAtNext_eq _ _ t.isLt]
  rfl

end Cert.Impute.K

end
-- ==== Proof.Blocks.lean ====
/-
  From blocks to the array. Grid point t stages batch row t of the argument (a block of 1 × 4096 × 128) and writes
  back batch row t of the result; a column of the block is a column of the array, so what the point writes back is
  block t of the column operator applied to the whole argument, and the 64 blocks fill the result.
-/
import proofs.«107573_j29815662968985_1_alg».proof.Proof.Gen.KernelIdeal.Value
import proofs.«107573_j29815662968985_1_alg».proof.Proof.KernelValue

set_option maxRecDepth 16384

noncomputable section

namespace Cert.Impute.K

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Both windows' index maps send grid point t to block (t, 0, 0). -/
theorem block_idx : ∀ t : Fin cfg0.N,
    win0_0.index t (0 : Fin 3) = win0_1.index t (0 : Fin 3) ∧ win0_0.index t (1 : Fin 3) = 0 ∧ win0_0.index t (2 : Fin 3) = 0
    ∧ win0_1.index t (1 : Fin 3) = 0 ∧ win0_1.index t (2 : Fin 3) = 0 ∧ win0_1.index t (0 : Fin 3) = t.val :=
  (by decide +kernel : ∀ t : Fin grid0.N, _)

theorem flushed_eq (c : Dev nD) (t : Fin cfg0.N) :
    (dats m 0 c).flushed 1 t = ((cfg0.win 1).blk t).view.read (Elt Ideal) (imputeAll (V m c main_arg0)) := by
  rw [Value.flushed1]
  obtain ⟨e0, e1, e2, e3, e4, e5⟩ := block_idx t
  have key : ∀ y : S1x4096x128.Idx,
      out0_1 (iblk m c 0 t) y = imputeAll (V m c main_arg0) (((cfg0.win 1).blk t).view.emb y) := by
    intro y
    obtain ⟨a, s, d, rfl⟩ : ∃ (a : Fin 1) (s : Fin 4096) (d : Fin 128), y = ix3 a s d := ⟨y 0, y 1, y 2, eq_ix3 y⟩
    obtain rfl : a = 0 := Subsingleton.elim _ _
    refine (out_at (iblk m c 0 t) s d).trans ?_
    have hE : ((cfg0.win 1).blk t).view.emb (ix3 (0 : Fin 1) s d) = ix3 (⟨t.val, t.isLt⟩ : Fin 64) s d := by
      funext a; apply Fin.ext
      match a with
      | ⟨0, _⟩ => show win0_1.index t (0 : Fin 3) * 1 + 1 * 0 = t.val; omega
      | ⟨1, _⟩ => show win0_1.index t (1 : Fin 3) * 4096 + 1 * s.val = s.val; omega
      | ⟨2, _⟩ => show win0_1.index t (2 : Fin 3) * 128 + 1 * d.val = d.val; omega
    rw [hE]
    show imputeCol (colOf (iblk m c 0 t) 0 d) s.val = imputeCol (colOf (V m c main_arg0) (⟨t.val, t.isLt⟩ : Fin 64) d) s.val
    congr 1
    funext r
    unfold colOf
    split
    · rename_i h
      show V m c main_arg0 (((cfg0.win 0).blk t).view.emb (ix3 (0 : Fin 1) (⟨r, h⟩ : Fin 4096) d)) = V m c main_arg0 (ix3 (⟨t.val, t.isLt⟩ : Fin 64) (⟨r, h⟩ : Fin 4096) d)
      congr 1
      funext a; apply Fin.ext
      match a with
      | ⟨0, _⟩ => show win0_0.index t (0 : Fin 3) * 1 + 1 * 0 = t.val; omega
      | ⟨1, _⟩ => show win0_0.index t (1 : Fin 3) * 4096 + 1 * r = r; omega
      | ⟨2, _⟩ => show win0_0.index t (2 : Fin 3) * 128 + 1 * d.val = d.val; omega
    · rfl
  funext j
  exact key j

/-- An index of the array is in point `t`'s block iff each coordinate is in the block's range on its axis. -/
theorem mem_blk (t : Fin cfg0.N) (i : S64x4096x128.Idx) :
    i ∈ ((cfg0.win 1).blk t).view.set ↔ ∀ a : Fin 3, win0_1.index t a * S1x4096x128.size a ≤ (i a).val ∧ (i a).val < win0_1.index t a * S1x4096x128.size a + S1x4096x128.size a := by
  show i ∈ ((View.whole main_v0).slice (win0_1.rect t)).set ↔ _
  rw [View.set_slice_whole, Rect.mem_set_unit]
  exact Iff.rfl

/-- Every index of the result lies in the block of the grid point of its batch row. -/
theorem covered (i : S64x4096x128.Idx) :
    ∃ t : Fin cfg0.N, (cfg0.win 1).flush t = true ∧ i ∈ ((cfg0.win 1).blk t).view.set := by
  obtain ⟨t0, ht0⟩ : ∃ t0 : Fin cfg0.N, t0.val = (i 0).val := ⟨⟨(i 0).val, (i 0).isLt⟩, rfl⟩
  refine ⟨t0, flush0_1 t0, (mem_blk t0 i).mpr ?_⟩
  obtain ⟨e0, e1, e2, e3, e4, e5⟩ := block_idx t0
  have h1 : (i 1).val < 4096 := (i 1).isLt
  have h2 : (i 2).val < 128 := (i 2).isLt
  intro a
  match a with
  | ⟨0, _⟩ =>
    show win0_1.index t0 (0 : Fin 3) * 1 ≤ (i 0).val ∧ (i 0).val < win0_1.index t0 (0 : Fin 3) * 1 + 1
    omega
  | ⟨1, _⟩ =>
    show win0_1.index t0 (1 : Fin 3) * 4096 ≤ (i 1).val ∧ (i 1).val < win0_1.index t0 (1 : Fin 3) * 4096 + 4096
    omega
  | ⟨2, _⟩ =>
    show win0_1.index t0 (2 : Fin 3) * 128 ≤ (i 2).val ∧ (i 2).val < win0_1.index t0 (2 : Fin 3) * 128 + 128
    omega

/-- The result array after the run: the column operator applied to the argument as launched. -/
theorem final (c : Dev nD) :
    (dats m 0 c).arrAt 1 cfg0.N = imputeAll (m ((c : Thread nD τ).loc main_arg0)) :=
  (dats m 0 c).arrAt_eq_of_cover 1 (imputeAll (V m c main_arg0)) (fun t _ => flushed_eq m c t) covered

/-- The kernel's run: the result array holds the column operator of the argument, the argument is unchanged. -/
theorem run : θ_run defs (onTc (τ := τ) (main (F := Ideal))) ⟨m, fun _ => 0, ρ⟩ fun r => ∀ c : Dev nD,
      r.2.mem ((c : Thread nD τ).loc main_v0) = imputeAll (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.Impute.K

end
-- ==== Proof.WindowFold.lean ====
/-
  A windowed reduction along the middle axis of a rank-3 array (window 1 × W × 1, stride one, padding only on the middle
  axis), read at an index: the left fold, over the W window positions in order, of the entries the window meets, a
  position in the padding contributing the initial value.
-/
import Idealize.ShloMosaic.PureOps.Contract
import Idealize.ShloMosaic.Lib.ValueIdx

namespace Cert.Impute

open Idealize.ShloMosaic Idealize.ShloMosaic.ValueIdx

/-- A left fold over all of `Fin n` in order, by a step that reads only the position's value, is the fold over `0, …, n - 1`. -/
private theorem foldl_finRange_val {α : Type} (n : ℕ) (g : α → ℕ → α) (a : α) :
    (List.finRange n).foldl (fun r i => g r i.val) a = (List.range n).foldl g a := by
  rw [← List.map_coe_finRange_eq_range, List.foldl_map]

/-- A window of extents 1 × W × 1 has W positions. -/
private theorem numel_mid (W : ℕ) : (⟨3, ![1, W, 1]⟩ : Shape).numel = W := by
  simp [Shape.numel, Fin.prod_univ_succ]

/-- Position `n` of a 1 × W × 1 window in row-major order has coordinates `(0, n, 0)`: the position is
    `(i₀ · W + i₁) · 1 + i₂` with `i₀, i₂ < 1`. -/
private theorem symm_mid (W : ℕ) (n : Fin (⟨3, ![1, W, 1]⟩ : Shape).numel) :
    (((⟨3, ![1, W, 1]⟩ : Shape).rowMajor.symm n) 0).val = 0
      ∧ (((⟨3, ![1, W, 1]⟩ : Shape).rowMajor.symm n) 1).val = n.val
      ∧ (((⟨3, ![1, W, 1]⟩ : Shape).rowMajor.symm n) 2).val = 0 := by
  have h := Shape.rowMajor_val_three ((⟨3, ![1, W, 1]⟩ : Shape).rowMajor.symm n)
  rw [Equiv.apply_symm_apply] at h
  have h0 : (((⟨3, ![1, W, 1]⟩ : Shape).rowMajor.symm n) 0).val < 1 := (((⟨3, ![1, W, 1]⟩ : Shape).rowMajor.symm n) 0).isLt
  have h2 : (((⟨3, ![1, W, 1]⟩ : Shape).rowMajor.symm n) 2).val < 1 := (((⟨3, ![1, W, 1]⟩ : Shape).rowMajor.symm n) 2).isLt
  have e1 : (![1, W, 1] : Fin 3 → ℕ) 1 = W := rfl
  have e2 : (![1, W, 1] : Fin 3 → ℕ) 2 = 1 := rfl
  rw [e1, e2] at h
  have h0' : (((⟨3, ![1, W, 1]⟩ : Shape).rowMajor.symm n) 0).val = 0 := by omega
  rw [h0'] at h
  omega

/-- With low padding only on the middle axis and the outer coordinates `b`, `d` in range, a padded position is inside the
    operand exactly when its middle coordinate `k` is, and the entry read there is the one at `(b, k - lo, d)`. -/
private theorem dite_window {α : Type} {B N D lo : ℕ} (x : (⟨3, ![B, N, D]⟩ : Shape).Idx → α) (v : α)
    (b : Fin B) (d : Fin D) (k : ℕ) (p : Fin 3 → ℕ) (hp0 : p 0 = b.val) (hp1 : p 1 = k) (hp2 : p 2 = d.val) :
    (if hin : ∀ a : Fin 3, (![0, lo, 0] : Fin 3 → ℕ) a ≤ p a ∧ p a - (![0, lo, 0] : Fin 3 → ℕ) a < (⟨3, ![B, N, D]⟩ : Shape).size a
      then x (fun a => ⟨p a - (![0, lo, 0] : Fin 3 → ℕ) a, (hin a).2⟩) else v)
      = (if hin : lo ≤ k ∧ k - lo < N then x (ix3 b ⟨k - lo, hin.2⟩ d) else v) := by
  by_cases hc : lo ≤ k ∧ k - lo < N
  · have hall : ∀ a : Fin 3, (![0, lo, 0] : Fin 3 → ℕ) a ≤ p a ∧ p a - (![0, lo, 0] : Fin 3 → ℕ) a < (⟨3, ![B, N, D]⟩ : Shape).size a := by
      intro a
      fin_cases a
      · exact ⟨Nat.zero_le _, by show p 0 - 0 < B; rw [hp0]; exact b.isLt⟩
      · exact ⟨by show lo ≤ p 1; rw [hp1]; exact hc.1, by show p 1 - lo < N; rw [hp1]; exact hc.2⟩
      · exact ⟨Nat.zero_le _, by show p 2 - 0 < D; rw [hp2]; exact d.isLt⟩
    rw [dif_pos hall, dif_pos hc]
    congr 1
    funext a
    fin_cases a
    · exact Fin.ext (by show p 0 - 0 = b.val; rw [hp0]; rfl)
    · exact Fin.ext (by show p 1 - lo = k - lo; rw [hp1])
    · exact Fin.ext (by show p 2 - 0 = d.val; rw [hp2]; rfl)
  · have hnot : ¬ ∀ a : Fin 3, (![0, lo, 0] : Fin 3 → ℕ) a ≤ p a ∧ p a - (![0, lo, 0] : Fin 3 → ℕ) a < (⟨3, ![B, N, D]⟩ : Shape).size a := by
      intro hall
      apply hc
      have h1 := hall 1
      have : lo ≤ p 1 ∧ p 1 - lo < N := h1
      rwa [hp1] at this
    rw [dif_neg hnot, dif_neg hc]

theorem reduceWindow_mid {α : Type} {B N D W lo hi : ℕ} (f : α → α → α)
    (x : (⟨3, ![B, N, D]⟩ : Shape).Idx → α) {u : Shape} (init : u.Idx → α)
    (h : (⟨3, ![B, N, D]⟩ : Shape).ReduceWindows (![1, W, 1] : Fin 3 → ℕ) ![1, 1, 1] ![0, lo, 0] ![0, hi, 0] ⟨3, ![B, N, D]⟩)
    (hu : 0 < u.numel) (b : Fin B) (t : Fin N) (d : Fin D) :
    Host.reduceWindow f (![1, W, 1] : Fin 3 → ℕ) ![1, 1, 1] ![0, lo, 0] ![0, hi, 0] x init h hu (ix3 b t d)
      = (List.range W).foldl (fun r n => f r (if hin : lo ≤ t.val + n ∧ t.val + n - lo < N
          then x (ix3 b ⟨t.val + n - lo, hin.2⟩ d) else init (Shape.Idx.first hu))) (init (Shape.Idx.first hu)) := by
  unfold Host.reduceWindow
  conv_rhs => rw [← numel_mid W, ← foldl_finRange_val]
  refine congrArg (fun F => List.foldl F (init (Shape.Idx.first hu)) (List.finRange (⟨3, ![1, W, 1]⟩ : Shape).numel))
    (funext fun r => funext fun n => ?_)
  obtain ⟨s0, s1, s2⟩ := symm_mid W n
  show f r _ = f r _
  congr 1
  exact dite_window x (init (Shape.Idx.first hu)) b d (t.val + n.val) _ (by simp [s0]) (by simp [s1]) (by simp [s2])

end Cert.Impute
-- ==== Proof.RefScanMax.lean ====
/-
  The reference's running maximum along the time axis (a windowed reduction: window of 4096 positions ending at t,
  the positions before the column's start holding the least word) of "the position where observed, else -1" is the
  previous observed position: the fold meets the column's entries 0, 1, …, t in order, and after entry s it holds
  the greatest observed position up to s, or -1.
-/
import proofs.«107573_j29815662968985_1_alg».proof.Proof.RefRead
import proofs.«107573_j29815662968985_1_alg».proof.Proof.Spec
import proofs.«107573_j29815662968985_1_alg».proof.Proof.PrevNext
import proofs.«107573_j29815662968985_1_alg».proof.Proof.Words
import proofs.«107573_j29815662968985_1_alg».proof.Proof.WindowFold
import Idealize.ShloMosaic.PureOps.Ideal.Laws

noncomputable section

namespace Cert.Impute.R

open Cert.ReferenceIdeal Cert.ReferenceIdeal.Gen Cert.ReferenceIdeal.ReadP Idealize.ShloMosaic Idealize.ShloMosaic.ValueIdx

/-- The integer the reference scans at column position `s`: the position where observed, else -1. -/
private def cellZ (valid : ℕ → Prop) [DecidablePred valid] (s : ℕ) : ℤ := if valid s then (s : ℤ) else -1

private theorem small_mk {a : ℤ} (h1 : -2147483648 ≤ a) (h2 : a < 2147483648) : Small a := by
  unfold Small; exact ⟨h1, h2⟩

/-- The running maximum over the first `n` window positions of the window ending at `t`: while only positions before
    the column's start have been met it is the least word; once the column's entries `0, …, e` have been met it is the
    greatest observed position among them, or -1. -/
private theorem scanMax_fold (valid : ℕ → Prop) [DecidablePred valid] (t : ℕ) (ht : t < 4096) (g : ℕ → BitVec 32)
    (hg : ∀ n, n < 4096 → g n = if 4095 ≤ t + n then bv (cellZ valid (t + n - 4095)) else bv (-2147483648))
    (n : ℕ) (hn : n ≤ 4096) :
    (n + t < 4096 → (List.range n).foldl (fun r k => IntOp.maxsi r (g k)) (bv (-2147483648)) = bv (-2147483648))
    ∧ (∀ e, n + t = 4096 + e →
        (List.range n).foldl (fun r k => IntOp.maxsi r (g k)) (bv (-2147483648)) = bv (prevIdx valid (e + 1) e)) := by
  induction n with
  | zero => exact ⟨fun _ => rfl, fun e he => by omega⟩
  | succ n ih =>
    obtain ⟨ih1, ih2⟩ := ih (by omega)
    have hgn := hg n (by omega)
    rw [List.range_succ, List.foldl_append, List.foldl_cons, List.foldl_nil]
    refine ⟨fun h => ?_, fun e he => ?_⟩
    · -- still before the column's start: the least word against the least word
      rw [ih1 (by omega), hgn, if_neg (by omega),
        maxsi_bv _ _ (small_mk (by omega) (by omega)) (small_mk (by omega) (by omega)), max_self]
    · rw [hgn, if_pos (by omega)]
      rcases Nat.eq_zero_or_pos e with he0 | hepos
      · -- the column's first entry: the least word against it
        subst he0
        have hs : t + n - 4095 = 0 := by omega
        rw [ih1 (by omega), hs, prevIdx_succ_zero]
        unfold cellZ
        split_ifs
        · rw [maxsi_bv _ _ (small_mk (by omega) (by omega)) (small_mk (by simp) (by simp))]
          congr 1
        · rw [maxsi_bv _ _ (small_mk (by omega) (by omega)) (small_mk (by omega) (by omega))]
          congr 1
      · -- a later entry `e' + 1`: observed, it exceeds every earlier position; missing, -1 changes nothing
        obtain ⟨e', rfl⟩ : ∃ e', e = e' + 1 := ⟨e - 1, by omega⟩
        have hs : t + n - 4095 = e' + 1 := by omega
        have h1 := prevIdx_ge valid (e' + 1) e'
        have h2 := prevIdx_le valid (e' + 1) e'
        rw [ih2 e' (by omega), hs, prevIdx_succ_succ]
        unfold cellZ
        split_ifs
        · rw [maxsi_bv _ _ (small_mk (by omega) (by omega)) (small_mk (by push_cast; omega) (by push_cast; omega)),
            max_eq_right (by push_cast; omega)]
        · rw [maxsi_bv _ _ (small_mk (by omega) (by omega)) (small_mk (by omega) (by omega)),
            max_eq_left (by omega)]

/-- The least 32-bit word, the running maximum's initial value. -/
private theorem intMin_eq : (2147483648#32 : BitVec 32) = bv (-2147483648) := by decide

/-- The array the reference scans, at `(b, s, d)`: the position `s` where the column's entry is observed, else -1. -/
private theorem v4_read (x : (⟨S64x4096x128, .f32⟩ : BufTy).Contents (Elt Ideal)) (b : Fin 64) (s : Fin 4096) (d : Fin 128) :
    val_main_v4 (F := Ideal) x (ix3 b s d) = bv (cellZ (colValid (colOf x b d)) s.val) := by
  rw [val_main_v4_apply, val_main_v1_apply, val_main_v0_apply, val_main_cst_apply, val_main_call0_v1_apply,
    val_main_v3_apply, val_main_v2_apply, val_main_call0_v2_apply, val_main_call0_v0_apply, val_main_c_apply]
  have hcol : colOf x b d s.val = x (ix3 b s d) := by
    unfold colOf
    rw [dif_pos s.isLt]
  have hcmp : FloatOps.cmpf (F := Ideal) (φ := .f32) .une (x (ix3 b s d)) (FloatOps.ofBits (F := Ideal) .f32 0x00000000#32)
      = BitVec.ofBool (decide (x (ix3 b s d) ≠ 0)) := by
    show Ideal.cmp .une (x (ix3 b s d)) (Ideal.ofBits .f32 0x00000000#32) = _
    rw [Ideal.ofBits_zero_f32]
    rfl
  rw [hcmp, select_ofBool]
  show (if decide (x (ix3 b s d) ≠ 0) = true then BitVec.ofNat 32 s.val else 4294967295#32) = _
  unfold cellZ
  by_cases hv : colValid (colOf x b d) s.val
  · have hx : x (ix3 b s d) ≠ 0 := by rw [← hcol]; exact hv
    rw [if_pos hv, if_pos (decide_eq_true hx), bv_natCast]
  · have hx : ¬ x (ix3 b s d) ≠ 0 := by rw [← hcol]; exact hv
    rw [if_neg hv, if_neg (by simpa using hx), bv_neg_one]

theorem v5_read (x : (⟨S64x4096x128, .f32⟩ : BufTy).Contents (Elt Ideal)) (b : Fin 64) (t : Fin 4096) (d : Fin 128) :
    val_main_v5 (F := Ideal) x (ix3 b t d) = bv (prevIdx (colValid (colOf x b d)) (t.val + 1) t.val) := by
  unfold val_main_v5
  rw [reduceWindow_mid IntOp.maxsi (val_main_v4 (F := Ideal) x) (val_main_call1_v0 (F := Ideal))
    reduceWindows_S64x4096x128_S64x4096x128_w1s1p0_0_w4096s1p4095_0_w1s1p0_0 h_S_ b t d]
  rw [val_main_call1_v0_apply, val_main_call1_c_apply, intMin_eq]
  refine ((scanMax_fold (colValid (colOf x b d)) t.val t.isLt _ (fun n hn => ?_) 4096 (le_refl _)).2 t.val (by omega))
  by_cases h : 4095 ≤ t.val + n
  · have hin : 4095 ≤ t.val + n ∧ t.val + n - 4095 < 4096 := ⟨h, by have := t.isLt; omega⟩
    rw [dif_pos hin, if_pos h]
    exact v4_read x b ⟨t.val + n - 4095, hin.2⟩ d
  · rw [dif_neg (fun hin => h hin.1), if_neg h]

end Cert.Impute.R

end
-- ==== Proof.RefScanMin.lean ====
/-
  The reference's reversed running minimum along the time axis (a windowed reduction: window of 4096 positions
  starting at t, the positions past the column's end holding the greatest word) of "the position where observed, else
  4096" is the next observed position: the fold meets the column's entries t, t + 1, …, 4095 in order, and after j of
  them it holds the least observed position among them, or 4096.
-/
import proofs.«107573_j29815662968985_1_alg».proof.Proof.RefRead
import proofs.«107573_j29815662968985_1_alg».proof.Proof.Spec
import proofs.«107573_j29815662968985_1_alg».proof.Proof.PrevNext
import proofs.«107573_j29815662968985_1_alg».proof.Proof.Words
import proofs.«107573_j29815662968985_1_alg».proof.Proof.WindowFold
import Idealize.ShloMosaic.PureOps.Ideal.Laws

noncomputable section

namespace Cert.Impute.R

open Cert.ReferenceIdeal Cert.ReferenceIdeal.Gen Cert.ReferenceIdeal.ReadP Idealize.ShloMosaic Idealize.ShloMosaic.ValueIdx

/-- What window position `k` of the window starting at `t` contributes, as an integer: the position `t + k` when it is
    inside the column and observed, 4096 when it is inside and not observed, the greatest word when it is past the end. -/
private def entry (valid : ℕ → Prop) [DecidablePred valid] (t k : ℕ) : ℤ :=
  if t + k < 4096 then (if valid (t + k) then ((t + k : ℕ) : ℤ) else 4096) else 2147483647

/-- Every contribution fits a signed 32-bit word. -/
private theorem small_entry (valid : ℕ → Prop) [DecidablePred valid] (t k : ℕ) : Small (entry valid t k) := by
  unfold entry Small
  split_ifs <;> constructor <;> push_cast <;> omega

/-- The next observed position lies between `t` and 4096, so it fits a signed 32-bit word. -/
private theorem small_next (valid : ℕ → Prop) [DecidablePred valid] (t n : ℕ) (ht : t ≤ 4096) :
    Small (nextIdx 4096 valid n t) := by
  have h1 := nextIdx_le valid 4096 n t
  have h2 := nextIdx_ge valid 4096 n t ht
  unfold Small
  constructor <;> push_cast at h1 ⊢ <;> omega

/-- The running minimum over the first `n ≥ 1` window positions is the next observed position within `n` positions. -/
private theorem fold_min_next (valid : ℕ → Prop) [DecidablePred valid] (t : ℕ) (ht : t < 4096) (n : ℕ) (hn : 1 ≤ n) :
    (List.range n).foldl (fun r k => IntOp.minsi r (bv (entry valid t k))) (bv 2147483647) = bv (nextIdx 4096 valid n t) := by
  induction n, hn using Nat.le_induction with
  | base =>
    simp only [List.range_one, List.foldl_cons, List.foldl_nil]
    rw [minsi_bv _ _ ⟨by norm_num, by norm_num⟩ (small_entry valid t 0)]
    congr 1
    rw [nextIdx_one]
    unfold entry
    simp only [Nat.add_zero]
    rw [if_pos ht, if_neg (show ¬ (4096 ≤ t) by omega)]
    split_ifs <;> omega
  | succ n hn ih =>
    rw [List.range_succ, List.foldl_append, ih]
    simp only [List.foldl_cons, List.foldl_nil]
    rw [minsi_bv _ _ (small_next valid t n (by omega)) (small_entry valid t n)]
    congr 1
    rw [nextIdx_add valid 4096 n 1 t, nextIdx_one]
    have h1 := nextIdx_le valid 4096 n t
    have h2 := nextIdx_ge valid 4096 n t (by omega)
    have h3 := nextIdx_lt valid 4096 n t
    unfold entry
    split_ifs <;> push_cast at * <;> omega

/-- The whole window of 4096 positions: the next observed position up to the column's end. -/
private theorem fold_entries (valid : ℕ → Prop) [DecidablePred valid] (t : ℕ) (ht : t < 4096) (g : ℕ → BitVec 32)
    (hg : ∀ k, g k = bv (entry valid t k)) :
    (List.range 4096).foldl (fun r k => IntOp.minsi r (g k)) 2147483647#32 = bv (nextIdx 4096 valid (4096 - t) t) := by
  have hfun : (fun r k => IntOp.minsi r (g k)) = (fun r k => IntOp.minsi r (bv (entry valid t k))) := by
    funext r k; rw [hg k]
  rw [hfun, ← nextIdx_of_le valid 4096 4096 t (by omega) (by omega)]
  exact fold_min_next valid t ht 4096 (by norm_num)

/-- The entry of the scanned array at column position `s`: the position where observed, else 4096. -/
private theorem entry_read (x : (⟨S64x4096x128, .f32⟩ : BufTy).Contents (Elt Ideal)) (b : Fin 64) (d : Fin 128)
    (s : ℕ) (hs : s < 4096) :
    val_main_v6 (F := Ideal) x (ix3 b ⟨s, hs⟩ d)
      = if colValid (colOf x b d) s then bv (s : ℤ) else bv 4096 := by
  rw [val_main_v6_apply, val_main_v1_apply, val_main_v0_apply, val_main_cst_apply, val_main_call2_v1_apply,
    val_main_v3_apply, val_main_v2_apply, val_main_call2_v2_apply, val_main_call2_v0_apply, val_main_c_0_apply]
  have hcmp : FloatOps.cmpf (F := Ideal) (φ := .f32) .une (x (ix3 b ⟨s, hs⟩ d)) (FloatOps.ofBits .f32 0x00000000#32)
      = BitVec.ofBool (decide (x (ix3 b ⟨s, hs⟩ d) ≠ 0)) := by
    show Ideal.cmp .une (x (ix3 b ⟨s, hs⟩ d)) (Ideal.ofBits .f32 0x00000000#32) = _
    rw [Ideal.ofBits_zero_f32]
    rfl
  rw [hcmp, select_ofBool]
  have hcol : colOf x b d s = x (ix3 b ⟨s, hs⟩ d) := by
    unfold colOf
    rw [dif_pos hs]
  have hpos : BitVec.ofNat 32 ((idx_main_v3 (idx_main_call2_v1 (ix3 b (⟨s, hs⟩ : Fin 4096) d))) 0).val = bv (s : ℤ) := by
    rw [bv_natCast]
  rw [hpos]
  by_cases hv : colValid (colOf x b d) s
  · have hv' : x (ix3 b ⟨s, hs⟩ d) ≠ 0 := by rw [← hcol]; exact hv
    rw [if_pos hv, decide_eq_true hv', if_pos rfl]
  · have hv' : ¬ x (ix3 b ⟨s, hs⟩ d) ≠ 0 := by rw [← hcol]; exact hv
    rw [if_neg hv, decide_eq_false hv', if_neg Bool.false_ne_true]
    rfl

theorem v7_read (x : (⟨S64x4096x128, .f32⟩ : BufTy).Contents (Elt Ideal)) (b : Fin 64) (t : Fin 4096) (d : Fin 128) :
    val_main_v7 (F := Ideal) x (ix3 b t d) = bv (nextIdx 4096 (colValid (colOf x b d)) (4096 - t.val) t.val) := by
  have hinit : val_main_call3_v0 (F := Ideal) (Shape.Idx.first h_S_) = 2147483647#32 := by
    rw [val_main_call3_v0_apply, val_main_call3_c_apply]
  unfold val_main_v7
  rw [reduceWindow_mid, hinit]
  refine fold_entries (colValid (colOf x b d)) t.val t.isLt _ (fun k => ?_)
  unfold entry
  by_cases hk : t.val + k < 4096
  · rw [dif_pos ⟨Nat.zero_le _, by omega⟩, if_pos hk]
    have hr := entry_read x b d (t.val + k - 0) (by omega)
    rw [hr]
    simp only [Nat.sub_zero]
    split_ifs <;> rfl
  · rw [dif_neg (by omega), if_neg hk]
    rfl

end Cert.Impute.R

end
-- ==== Proof.RefTake.lean ====
/-
  The reference's two reads along the time axis (take_along_axis: a gather batched over the batch and lane axes, with
  the index wrapped when negative and the result masked where the index is out of range): at an index word that holds a
  position k of the column, the read is the column's entry at k, and the mask is set.
-/
import proofs.«107573_j29815662968985_1_alg».proof.Proof.RefRead
import proofs.«107573_j29815662968985_1_alg».proof.Proof.Spec
import proofs.«107573_j29815662968985_1_alg».proof.Proof.PrevNext
import proofs.«107573_j29815662968985_1_alg».proof.Proof.Words
import Idealize.ShloMosaic.Lib.ValueIdx
import Idealize.ShloMosaic.PureOps.Reduce

noncomputable section

namespace Cert.Impute.R

open Cert.ReferenceIdeal Cert.ReferenceIdeal.Gen Cert.ReferenceIdeal.ReadP Idealize.ShloMosaic Idealize.ShloMosaic.ValueIdx

/-! ## Words that hold a position of the column -/

private theorem small_of_lt (k : ℕ) (hk : k < 4096) : Small (k : ℤ) := ⟨by omega, by omega⟩

/-- A word that holds a position of the column is not negative … -/
private theorem pos_not_neg (k : ℕ) (hk : k < 4096) : IntOp.cmpi .slt (BitVec.ofNat 32 k) 0#32 = 0#1 := by
  have h0 : (0#32 : BitVec 32) = bv ((0 : ℕ) : ℤ) := by rw [bv_natCast]
  rw [← bv_natCast k, h0, cmpi_slt_bv _ _ (small_of_lt k hk) (small_of_lt 0 (by omega))]
  have : ¬ ((k : ℤ) < ((0 : ℕ) : ℤ)) := by omega
  rw [decide_eq_false this]; rfl

/-- … is at least 0 … -/
private theorem pos_ge_zero (k : ℕ) (hk : k < 4096) : IntOp.cmpi .sge (BitVec.ofNat 32 k) 0#32 = 1#1 := by
  have h0 : (0#32 : BitVec 32) = bv ((0 : ℕ) : ℤ) := by rw [bv_natCast]
  rw [← bv_natCast k, h0, cmpi_sge_bv _ _ (small_of_lt k hk) (small_of_lt 0 (by omega))]
  have : (((0 : ℕ) : ℤ) ≤ (k : ℤ)) := by omega
  rw [decide_eq_true this]; rfl

/-- … and at most 4095. -/
private theorem pos_le_last (k : ℕ) (hk : k < 4096) : IntOp.cmpi .sle (BitVec.ofNat 32 k) 4095#32 = 1#1 := by
  have h0 : (4095#32 : BitVec 32) = bv ((4095 : ℕ) : ℤ) := by rw [bv_natCast]
  rw [← bv_natCast k, h0, cmpi_sle_bv _ _ (small_of_lt k hk) (small_of_lt 4095 (by omega))]
  have : ((k : ℤ) ≤ ((4095 : ℕ) : ℤ)) := by omega
  rw [decide_eq_true this]; rfl

/-- Read as a signed integer it is the position. -/
private theorem pos_toNat (k : ℕ) (hk : k < 4096) : (BitVec.ofNat 32 k).toInt.toNat = k := by
  rw [← bv_natCast k, bv_toInt _ (small_of_lt k hk)]; rfl

/-! ## The range mask: a reduction by "and" over the unit last axis -/

/-- A left fold by "and" from the bit 1 over one-bit words that are all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    have h11 : IntOp.andi 1#1 1#1 = 1#1 := by decide
    rw [h11]
    exact foldl_andi_one f l (fun n hn => h n (List.mem_cons_of_mem _ hn))

/-- A reduction by "and" from 1 is 1 at a result index when every operand entry that reduces into it is 1. -/
private theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  apply foldl_andi_one
  intro i hi
  rw [List.mem_filter] at hi
  exact hx i (by simpa using hi.2)

/-- Dropping the unit last axis: the only index that drops to (b, t, d) is (b, t, d, 0). -/
private theorem drop_unit (h : S64x4096x128x1.ReducesTo [3] S64x4096x128) (i : S64x4096x128x1.Idx) (b : Fin 64) (t : Fin 4096)
    (d : Fin 128) (e : h.drop i = ix3 b t d) : i = ix4 b t d 0 := by
  have e0 : (h.drop i 0 : Nat) = b.val := by rw [e]
  have e1 : (h.drop i 1 : Nat) = t.val := by rw [e]
  have e2 : (h.drop i 2 : Nat) = d.val := by rw [e]
  rw [Shape.ReducesTo.drop_apply_val_of_eq h i 0 0] at e0
  rw [Shape.ReducesTo.drop_apply_val_of_eq h i 1 1] at e1
  rw [Shape.ReducesTo.drop_apply_val_of_eq h i 2 2] at e2
  rw [eq_ix4 i]
  have e3 : (i 3).val = 0 := by have := (i 3).isLt; change (i 3).val < 1 at this; omega
  funext a
  match a with
  | ⟨0, _⟩ => exact Fin.ext e0
  | ⟨1, _⟩ => exact Fin.ext e1
  | ⟨2, _⟩ => exact Fin.ext e2
  | ⟨3, _⟩ => exact Fin.ext e3

/-! ## The gather along the time axis, batched over the batch and lane axes -/

/-- The reference's gather: the time axis collapsed and indexed, the batch and lane axes batching. -/
private abbrev G : GatherDims S64x4096x128 S64x4096x128x1 S64x4096x128 :=
  gather_S64x4096x128_S64x4096x128x1_S64x4096x128_n_1_02_02_1_3_111

/-- The gather read at (b, t, d): the operand at (b, p, d), p the start index at (b, t, d, 0) read signed and clamped
    into [0, 4095]. On the two batching axes the operand coordinate is the result's; on the time axis it is the
    clamped start index, with no offset. -/
private theorem gather_read {α : Type} {w : Nat} (x : S64x4096x128.Idx → α) (idx : IVec S64x4096x128x1 w) (b : Fin 64)
    (t : Fin 4096) (d : Fin 128) :
    Host.gather G x idx (ix3 b t d)
      = x (ix3 b ⟨min (idx (ix4 b t d 0)).toInt.toNat 4095, by omega⟩ d) := by
  unfold Host.gather
  congr 1
  funext a
  refine Fin.ext ?_
  show G.start (ix3 b t d) idx a + G.batchCoord (ix3 b t d) a + G.offCoord (ix3 b t d) a = _
  have hb0 : (0 : Fin S64x4096x128.rank) ∈ G.operandBatchingDims := by decide
  have hb2 : (2 : Fin S64x4096x128.rank) ∈ G.operandBatchingDims := by decide
  have hnb1 : (1 : Fin S64x4096x128.rank) ∉ G.operandBatchingDims := by decide
  have hc1 : (1 : Fin S64x4096x128.rank) ∈ G.collapsedSliceDims := by decide
  have hm1 : (1 : Fin S64x4096x128.rank) ∈ G.startIndexMap := by decide
  match a with
  | ⟨0, h0⟩ =>
    have hb : (⟨0, h0⟩ : Fin S64x4096x128.rank) ∈ G.operandBatchingDims := hb0
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, h1⟩ =>
    have hnb : (⟨1, h1⟩ : Fin S64x4096x128.rank) ∉ G.operandBatchingDims := hnb1
    have hc : (⟨1, h1⟩ : Fin S64x4096x128.rank) ∈ G.collapsedSliceDims := hc1
    have hm : (⟨1, h1⟩ : Fin S64x4096x128.rank) ∈ G.startIndexMap := hm1
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : G.siIdx (ix3 b t d) ⟨List.idxOf (⟨1, h1⟩ : Fin S64x4096x128.rank) G.startIndexMap,
        List.idxOf_lt_length_iff.2 hm⟩ = ix4 b t d 0 := by
      funext c; refine Fin.ext ?_
      match c with
      | ⟨0, _⟩ => rfl
      | ⟨1, _⟩ => rfl
      | ⟨2, _⟩ => rfl
      | ⟨3, _⟩ => rfl
    rw [hsi]
    rfl
  | ⟨2, h2⟩ =>
    have hb : (⟨2, h2⟩ : Fin S64x4096x128.rank) ∈ G.operandBatchingDims := hb2
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl

/-- Reading the array at a position given by its value. -/
private theorem read_at {α : Type} (x : S64x4096x128.Idx → α) (b : Fin 64) (d : Fin 128) (m : ℕ) (hm : m < 4096) (k : Fin 4096)
    (e : m = k.val) : x (ix3 b ⟨m, hm⟩ d) = x (ix3 b k d) := by
  subst e; rfl

/-! ## The two reads -/

theorem v13_read (x : (⟨S64x4096x128, .f32⟩ : BufTy).Contents (Elt Ideal)) (b : Fin 64) (t : Fin 4096) (d : Fin 128)
    (k : Fin 4096) (hk : val_main_v9 (F := Ideal) x (ix3 b t d) = BitVec.ofNat 32 k.val) :
    val_main_v13 (F := Ideal) x (ix3 b t d) = x (ix3 b k d) := by
  have hk' : k.val < 4096 := k.isLt
  have hb := b.isLt
  have ht := t.isLt
  have hd := d.isLt
  -- the reshaped index array at (b, t, d, 0) reads the index array at (b, t, d)
  have hre : idx_main_call5_v5 (ix4 b t d (0 : Fin 1)) = ix3 b t d := by
    funext a
    match a with
    | ⟨0, _⟩ => refine Fin.ext ?_; show (((b.val * 4096 + t.val) * 128 + d.val) * 1 + 0) / 524288 = b.val; omega
    | ⟨1, _⟩ => refine Fin.ext ?_; show (((b.val * 4096 + t.val) * 128 + d.val) * 1 + 0) / 128 % 4096 = t.val; omega
    | ⟨2, _⟩ => refine Fin.ext ?_; show (((b.val * 4096 + t.val) * 128 + d.val) * 1 + 0) % 128 = d.val; omega
  -- the wrap of a negative index leaves a position of the column alone
  have hidx : val_main_call5_v5 (F := Ideal) x (ix4 b t d 0) = BitVec.ofNat 32 k.val := by
    rw [val_main_call5_v5_apply, hre, val_main_call5_v4_apply, val_main_call5_v1_apply, hk, val_main_call5_v0_apply,
      val_main_call5_c_apply, pos_not_neg k.val hk', select_zero]
  -- the range mask is set: the one entry that reduces into (b, t, d) is 0 ≤ k ∧ k ≤ 4095
  have hmask : val_main_call5_v12 (F := Ideal) x (ix3 b t d) = 1#1 := by
    unfold val_main_call5_v12
    refine reduce_andi_one _ _ _ _ _ (val_main_call5_c_3_apply _) ?_
    intro i hi
    obtain rfl := drop_unit _ i b t d hi
    rw [val_main_call5_v11_apply, val_main_call5_v7_apply, val_main_call5_v10_apply, hidx, val_main_call5_v6_apply,
      val_main_call5_c_2_apply, val_main_call5_v9_apply, val_main_call5_v8_apply, val_main_call5_c_1_apply,
      pos_ge_zero k.val hk', pos_le_last k.val hk']
    decide
  rw [val_main_v13_apply, hmask, select_one]
  -- the gather reads the column at the clamped index, which is k
  unfold val_main_call5_v13
  rw [gather_read]
  exact read_at x b d _ _ k (by rw [hidx, pos_toNat k.val hk']; omega)

theorem v14_read (x : (⟨S64x4096x128, .f32⟩ : BufTy).Contents (Elt Ideal)) (b : Fin 64) (t : Fin 4096) (d : Fin 128)
    (k : Fin 4096) (hk : val_main_v12 (F := Ideal) x (ix3 b t d) = BitVec.ofNat 32 k.val) :
    val_main_v14 (F := Ideal) x (ix3 b t d) = x (ix3 b k d) := by
  have hk' : k.val < 4096 := k.isLt
  have hb := b.isLt
  have ht := t.isLt
  have hd := d.isLt
  -- the reshaped index array at (b, t, d, 0) reads the index array at (b, t, d)
  have hre : idx_main_call6_v5 (ix4 b t d (0 : Fin 1)) = ix3 b t d := by
    funext a
    match a with
    | ⟨0, _⟩ => refine Fin.ext ?_; show (((b.val * 4096 + t.val) * 128 + d.val) * 1 + 0) / 524288 = b.val; omega
    | ⟨1, _⟩ => refine Fin.ext ?_; show (((b.val * 4096 + t.val) * 128 + d.val) * 1 + 0) / 128 % 4096 = t.val; omega
    | ⟨2, _⟩ => refine Fin.ext ?_; show (((b.val * 4096 + t.val) * 128 + d.val) * 1 + 0) % 128 = d.val; omega
  -- the wrap of a negative index leaves a position of the column alone
  have hidx : val_main_call6_v5 (F := Ideal) x (ix4 b t d 0) = BitVec.ofNat 32 k.val := by
    rw [val_main_call6_v5_apply, hre, val_main_call6_v4_apply, val_main_call6_v1_apply, hk, val_main_call6_v0_apply,
      val_main_call6_c_apply, pos_not_neg k.val hk', select_zero]
  -- the range mask is set: the one entry that reduces into (b, t, d) is 0 ≤ k ∧ k ≤ 4095
  have hmask : val_main_call6_v12 (F := Ideal) x (ix3 b t d) = 1#1 := by
    unfold val_main_call6_v12
    refine reduce_andi_one _ _ _ _ _ (val_main_call6_c_3_apply _) ?_
    intro i hi
    obtain rfl := drop_unit _ i b t d hi
    rw [val_main_call6_v11_apply, val_main_call6_v7_apply, val_main_call6_v10_apply, hidx, val_main_call6_v6_apply,
      val_main_call6_c_2_apply, val_main_call6_v9_apply, val_main_call6_v8_apply, val_main_call6_c_1_apply,
      pos_ge_zero k.val hk', pos_le_last k.val hk']
    decide
  rw [val_main_v14_apply, hmask, select_one]
  -- the gather reads the column at the clamped index, which is k
  unfold val_main_call6_v13
  rw [gather_read]
  exact read_at x b d _ _ k (by rw [hidx, pos_toNat k.val hk']; omega)

end Cert.Impute.R

end
-- ==== Proof.RefValue.lean ====
/-
  The reference, read at a position of a column, is the column operator there: its running maximum and reversed
  running minimum are the previous and next observed positions, its two reads along the time axis are the entries at
  the run's two ends, and the remaining operations are the operator's pointwise end.
-/
import proofs.«107573_j29815662968985_1_alg».proof.Proof.RefScanMax
import proofs.«107573_j29815662968985_1_alg».proof.Proof.RefScanMin
import proofs.«107573_j29815662968985_1_alg».proof.Proof.RefTake

noncomputable section

namespace Cert.Impute.R

open Cert.ReferenceIdeal Cert.ReferenceIdeal.Gen Cert.ReferenceIdeal.ReadP Idealize.ShloMosaic Idealize.ShloMosaic.ValueIdx

/-- The reference's constants and positions at an index. -/
theorem v8_at (i : S64x4096x128.Idx) : val_main_v8 (F := Ideal) i = 0#32 := by
  rw [val_main_v8_apply, val_main_c_1_apply]
theorem v10_at (i : S64x4096x128.Idx) : val_main_v10 (F := Ideal) i = 4096#32 := by
  rw [val_main_v10_apply, val_main_c_2_apply]
theorem call4_v1_at (i : S64x4096x128.Idx) : val_main_call4_v1 (F := Ideal) i = 4095#32 := by
  rw [val_main_call4_v1_apply, val_main_call4_v0_apply, val_main_c_3_apply]
theorem v16_at (i : S64x4096x128.Idx) : val_main_v16 (F := Ideal) i = 1#32 := by
  rw [val_main_v16_apply, val_main_c_4_apply]
theorem v23_at (i : S64x4096x128.Idx) : val_main_v23 (F := Ideal) i = 1#32 := by
  rw [val_main_v23_apply, val_main_c_5_apply]
theorem v28_at (i : S64x4096x128.Idx) : val_main_v28 (F := Ideal) i = 0#32 := by
  rw [val_main_v28_apply, val_main_c_6_apply]
theorem v18_at (i : S64x4096x128.Idx) : val_main_v18 (F := Ideal) i = BitVec.ofNat 32 (i 1).val := by
  rw [val_main_v18_apply, val_main_v3_apply, val_main_v2_apply]
theorem v33_at (i : S64x4096x128.Idx) : val_main_v33 (F := Ideal) i = BitVec.ofNat 32 (i 1).val := by
  rw [val_main_v33_apply, val_main_v3_apply, val_main_v2_apply]

/-- The reference's last operations at an index are the operator's pointwise end of the seven values there. -/
theorem v36_tail (x : (⟨S64x4096x128, .f32⟩ : BufTy).Contents (Elt Ideal)) (b : Fin 64) (t : Fin 4096) (d : Fin 128) :
    val_main_v36 (F := Ideal) x (ix3 b t d)
      = tail (val_main_v1 (F := Ideal) x (ix3 b t d)) (x (ix3 b t d)) (BitVec.ofNat 32 t.val)
          (val_main_v5 (F := Ideal) x (ix3 b t d)) (val_main_v7 (F := Ideal) x (ix3 b t d))
          (val_main_v13 (F := Ideal) x (ix3 b t d)) (val_main_v14 (F := Ideal) x (ix3 b t d)) := by
  rw [val_main_v36_apply, val_main_v35_apply, val_main_v34_apply, val_main_v32_apply, val_main_v31_apply,
    val_main_v30_apply, val_main_v29_apply, val_main_v27_apply, val_main_v26_apply, val_main_v25_apply,
    val_main_v24_apply, val_main_v22_apply, val_main_v21_apply, val_main_v20_apply, val_main_v19_apply,
    val_main_v17_apply, val_main_v15_apply, val_main_v12_apply, val_main_v11_apply, val_main_v9_apply,
    v8_at, v10_at, call4_v1_at, v16_at, v23_at, v28_at, v18_at, v33_at]
  rfl

theorem colOf_lt (x : (⟨S64x4096x128, .f32⟩ : BufTy).Contents (Elt Ideal)) (b : Fin 64) (d : Fin 128) (k : Fin 4096) :
    x (ix3 b k d) = colOf x b d k.val := by
  unfold colOf; rw [dif_pos k.isLt]

theorem bv_zero : bv 0 = 0#32 := by decide
theorem bv_4096 : bv 4096 = 4096#32 := by decide
theorem bv_4095 : bv 4095 = 4095#32 := by decide

/-- The observed bit of an entry. -/
theorem v1_at (x : (⟨S64x4096x128, .f32⟩ : BufTy).Contents (Elt Ideal)) (b : Fin 64) (t : Fin 4096) (d : Fin 128) :
    val_main_v1 (F := Ideal) x (ix3 b t d) = BitVec.ofBool (decide (colOf x b d t.val ≠ 0)) := by
  rw [val_main_v1_apply, val_main_v0_apply, val_main_cst_apply, colOf_lt x b d t]
  show Ideal.cmp .une (colOf x b d t.val) (Ideal.ofBits .f32 0x00000000#32) = _
  rw [Ideal.ofBits_zero_f32]
  unfold Ideal.cmp
  congr 1

/-- The run's start as a word: a position of the column. -/
theorem v9_at (x : (⟨S64x4096x128, .f32⟩ : BufTy).Contents (Elt Ideal)) (b : Fin 64) (t : Fin 4096) (d : Fin 128) :
    val_main_v9 (F := Ideal) x (ix3 b t d)
      = BitVec.ofNat 32 (max (prevIdx (colValid (colOf x b d)) (t.val + 1) t.val) 0).toNat := by
  have ht : t.val < 4096 := t.isLt
  have hp1 := prevIdx_ge (colValid (colOf x b d)) (t.val + 1) t.val
  have hp2 := prevIdx_le (colValid (colOf x b d)) (t.val + 1) t.val
  rw [val_main_v9_apply, v8_at, v5_read, ← bv_zero,
    maxsi_bv _ _ (by constructor <;> omega) (by constructor <;> omega), ← bv_natCast,
    Int.toNat_of_nonneg (le_max_right _ _)]

/-- The run's end as a word: a position of the column. -/
theorem v12_at (x : (⟨S64x4096x128, .f32⟩ : BufTy).Contents (Elt Ideal)) (b : Fin 64) (t : Fin 4096) (d : Fin 128) :
    val_main_v12 (F := Ideal) x (ix3 b t d)
      = BitVec.ofNat 32 (if nextIdx 4096 (colValid (colOf x b d)) (4096 - t.val) t.val < 4096
          then nextIdx 4096 (colValid (colOf x b d)) (4096 - t.val) t.val else 4095).toNat := by
  have ht : t.val < 4096 := t.isLt
  have hq1 := nextIdx_le (colValid (colOf x b d)) 4096 (4096 - t.val) t.val
  have hq2 := nextIdx_ge (colValid (colOf x b d)) 4096 (4096 - t.val) t.val (by omega)
  have he : 0 ≤ (if nextIdx 4096 (colValid (colOf x b d)) (4096 - t.val) t.val < 4096
      then nextIdx 4096 (colValid (colOf x b d)) (4096 - t.val) t.val else 4095) := by split <;> omega
  rw [val_main_v12_apply, val_main_v11_apply, v10_at, call4_v1_at, v7_read, ← bv_4096, ← bv_4095,
    cmpi_slt_bv _ _ (by constructor <;> omega) (by constructor <;> omega), select_ofBool, ← bv_natCast,
    Int.toNat_of_nonneg he]
  by_cases h : nextIdx 4096 (colValid (colOf x b d)) (4096 - t.val) t.val < 4096
  · rw [if_pos h, decide_eq_true h, if_pos rfl]
  · rw [if_neg h, decide_eq_false h, if_neg (by decide)]

theorem ref_at (x : (⟨S64x4096x128, .f32⟩ : BufTy).Contents (Elt Ideal)) (b : Fin 64) (t : Fin 4096) (d : Fin 128) :
    val_main_v36 (F := Ideal) x (ix3 b t d) = imputeCol (colOf x b d) t.val := by
  have ht : t.val < 4096 := t.isLt
  have hp1 := prevIdx_ge (colValid (colOf x b d)) (t.val + 1) t.val
  have hp2 := prevIdx_le (colValid (colOf x b d)) (t.val + 1) t.val
  have hq1 := nextIdx_le (colValid (colOf x b d)) 4096 (4096 - t.val) t.val
  have hq2 := nextIdx_ge (colValid (colOf x b d)) 4096 (4096 - t.val) t.val (by omega)
  have hs' : (max (prevIdx (colValid (colOf x b d)) (t.val + 1) t.val) 0).toNat < 4096 := by
    rcases max_cases (prevIdx (colValid (colOf x b d)) (t.val + 1) t.val) 0 with h | h <;> omega
  have he' : (if nextIdx 4096 (colValid (colOf x b d)) (4096 - t.val) t.val < 4096
      then nextIdx 4096 (colValid (colOf x b d)) (4096 - t.val) t.val else 4095).toNat < 4096 := by split <;> omega
  have h13 := v13_read x b t d ⟨_, hs'⟩ (v9_at x b t d)
  have h14 := v14_read x b t d ⟨_, he'⟩ (v12_at x b t d)
  rw [colOf_lt x b d ⟨_, hs'⟩] at h13
  rw [colOf_lt x b d ⟨_, he'⟩] at h14
  rw [v36_tail, v1_at, v5_read, v7_read, h13, h14, colOf_lt x b d t]
  rfl

/-- The reference's result: the column operator applied to the argument. -/
theorem ref_eq (x : (⟨S64x4096x128, .f32⟩ : BufTy).Contents (Elt Ideal)) : val_main_v36 (F := Ideal) x = imputeAll x := by
  funext i
  obtain ⟨b, t, d, rfl⟩ : ∃ (b : Fin 64) (t : Fin 4096) (d : Fin 128), i = ix3 b t d := ⟨i 0, i 1, i 2, eq_ix3 i⟩
  exact ref_at x b t d

end Cert.Impute.R

end
-- ==== Proof.lean ====
/-
  The gap-filling kernel against its reference, over the extended reals.
  Both programs compute, column by column along the time axis (4096 positions; a column is one batch row and one
  feature lane), the same operator: an entry is observed when it is not zero; for a position t let pv be the previous
  observed position (or -1) and nv the next one (or 4096), start = max(pv, 0), end = nv if nv < 4096 else 4095; the
  entry is kept if it is observed, if start ≥ end, or if t ≥ end, and is otherwise the linear interpolation
  a + (t - start)·(b - a) / max(end - start - 1, 1) between the entries a, b at start and end (just a when
  end - start - 1 ≤ 0).
  The kernel finds (pv, a) and (nv, b) by twelve doubling steps each way on (index, value) pairs, rolled along the
  time axis of a block that holds one batch row; the reference by a running maximum, a reversed running minimum and
  two reads along the axis. Where no observed position exists the kernel carries the zero of the unobserved entry
  itself and the reference reads the column's first or last entry, which is then unobserved too: both are zero.
  The equality needs no arithmetic law: with the four values equal, the remaining operations are the same on both
  sides, so the precondition is not used. No operation of the kernel is rewritten by the idealization.
-/
import proofs.«107573_j29815662968985_1_alg».proof.Defs
import proofs.«107573_j29815662968985_1_alg».proof.Proof.Gen.Kernel
import proofs.«107573_j29815662968985_1_alg».proof.Proof.Gen.Kernel.Skeleton
import proofs.«107573_j29815662968985_1_alg».proof.Proof.Gen.Kernel.Launch
import proofs.«107573_j29815662968985_1_alg».proof.Proof.Gen.Kernel.Points
import proofs.«107573_j29815662968985_1_alg».proof.Proof.Gen.Kernel.Frame
import proofs.«107573_j29815662968985_1_alg».proof.Proof.Gen.KernelIdeal
import proofs.«107573_j29815662968985_1_alg».proof.Proof.Gen.KernelIdeal.Skeleton
import proofs.«107573_j29815662968985_1_alg».proof.Proof.Gen.KernelIdeal.Launch
import proofs.«107573_j29815662968985_1_alg».proof.Proof.Gen.KernelIdeal.Points
import proofs.«107573_j29815662968985_1_alg».proof.Proof.Gen.KernelIdeal.Frame
import proofs.«107573_j29815662968985_1_alg».proof.Proof.Gen.ReferenceIdeal
import proofs.«107573_j29815662968985_1_alg».proof.Proof.Gen.Pre_finite_inputs
import proofs.«107573_j29815662968985_1_alg».proof.Proof.Gen.KernelIdeal.Value
import proofs.«107573_j29815662968985_1_alg».proof.Proof.Blocks
import proofs.«107573_j29815662968985_1_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RunP.run (F := Ideal) m ρ)

/-- Both runs end with the column operator applied to the (agreeing) arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Impute.imputeAll (m ((c.tc : Thread Cert.KernelIdeal.nD Cert.KernelIdeal.τ).loc Cert.KernelIdeal.main_arg0)),
    Cert.Impute.K.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v36_eq, Cert.Impute.R.ref_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
